-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v89)) (v1 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S160000x512 : Shape := ⟨2, ![160000, 512]⟩
abbrev S3x512x512 : Shape := ⟨3, ![3, 512, 512]⟩
abbrev S3x512 : Shape := ⟨2, ![3, 512]⟩
abbrev S2x160000 : Shape := ⟨2, ![2, 160000]⟩
abbrev S160000 : Shape := ⟨1, ![160000]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S160000x512 : S_.BroadcastsInDim S160000x512 (![] : Fin 0 → Fin S160000x512.rank)
  reducesTo_S160000x512_S_d0_1 : S160000x512.ReducesTo [0, 1] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_

variable [Facts]

def fn_part1 {F : FTy → Type} [FloatOps F] (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  main_v18

def fn {F : FTy → Type} [FloatOps F] (main_arg0 : FVec F S10000x512 .f32) (main_arg1 : FVec F S160000x512 .f32) (main_arg2 : FVec F S3x512x512 .f32) (main_arg3 : FVec F S3x512 .f32) (main_arg4 : IVec S2x160000 32) (main_arg5 : IVec S160000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S160000x512 .f32 := Host.absf main_arg1
  let main_cst_0 : FVec F S_ .f32 := constant S_ .f32 0x7F800000#32
  let main_v5 : FVec F S160000x512 .f32 := broadcastInDim S160000x512 ![] bcast_S_S160000x512 main_cst_0
  let main_v6 : IVec S160000x512 1 := cmpf .olt main_v4 main_v5
  let main_c_1 : IVec S_ 1 := constantI S_ 1 1#1
  let main_v7 : IVec S_ 1 := (fun x v => Host.reduce IntOp.andi x v reducesTo_S160000x512_S_d0_1 h_S_) main_v6 main_c_1
  let main_v8 : IVec S_ 1 := andi main_v3 main_v7
  let main_v9 : FVec F S3x512x512 .f32 := Host.absf main_arg2
  let main_cst_2 : FVec F S_ .f32 := constant S_ .f32 0x7F800000#32
  let main_v10 : FVec F S3x512x512 .f32 := broadcastInDim S3x512x512 ![] bcast_S_S3x512x512 main_cst_2
  let main_v11 : IVec S3x512x512 1 := cmpf .olt main_v9 main_v10
  let main_c_3 : IVec S_ 1 := constantI S_ 1 1#1
  let main_v12 : IVec S_ 1 := (fun x v => Host.reduce IntOp.andi x v reducesTo_S3x512x512_S_d0_1_2 h_S_) main_v11 main_c_3
  let main_v13 : IVec S_ 1 := andi main_v8 main_v12
  let main_v14 : FVec F S3x512 .f32 := Host.absf main_arg3
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_v13 main_v16
-- ==== Kernel.lean ====
abbrev S10000x512 : Shape := ⟨2, ![10000, 512]⟩
abbrev S160000x512 : Shape := ⟨2, ![160000, 512]⟩
abbrev S3x512x512 : Shape := ⟨3, ![3, 512, 512]⟩
abbrev S3x512 : Shape := ⟨2, ![3, 512]⟩
abbrev S2x160000 : Shape := ⟨2, ![2, 160000]⟩
abbrev S160000 : Shape := ⟨1, ![160000]⟩
abbrev S1x160000 : Shape := ⟨2, ![1, 160000]⟩
abbrev S_ : Shape := ⟨0, ![]⟩
abbrev S160000x1 : Shape := ⟨2, ![160000, 1]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S3200x512 : Shape := ⟨2, ![3200, 512]⟩

abbrev nBuf : Space → Nat
  | .hbm => 120
  | .vmem => 24
  | .smem => 0
  | _ => 0

abbrev bufTy : (tb : Table) → Fin (tcTables nBuf tb) → BufTy
  | .hbm, ⟨0, _⟩ => ⟨S10000x512, .f32⟩
  | .hbm, ⟨1, _⟩ => ⟨S160000x512, .f32⟩
  | .hbm, ⟨2, _⟩ => ⟨S3x512x512, .f32⟩
  | .hbm, ⟨3, _⟩ => ⟨S3x512, .f32⟩
  | .hbm, ⟨4, _⟩ => ⟨S2x160000, .i32⟩
  | .hbm, ⟨5, _⟩ => ⟨S160000, .i32⟩
  | .hbm, ⟨6, _⟩ => ⟨S1x160000, .i32⟩
  | .hbm, ⟨7, _⟩ => ⟨S160000, .i32⟩
  | .hbm, ⟨8, _⟩ => ⟨S1x160000, .i32⟩
  | .hbm, ⟨9, _⟩ => ⟨S160000, .i32⟩
  | .hbm, ⟨10, _⟩ => ⟨S_, .i32⟩
  | .hbm, ⟨11, _⟩ => ⟨S160000, .i32⟩
  | .hbm, ⟨12, _⟩ => ⟨S160000, .i1⟩
  | .hbm, ⟨13, _⟩ => ⟨S_, .i32⟩
  | .hbm, ⟨14, _⟩ => ⟨S160000, .i32⟩
  | .hbm, ⟨15, _⟩ => ⟨S160000, .i32⟩
  | .hbm, ⟨16, _⟩ => ⟨S160000, .i32⟩
  | .hbm, ⟨17, _⟩ => ⟨S160000x1, .i32⟩
  | .hbm, ⟨18, _⟩ => ⟨S160000x512, .f32⟩
  | .hbm, ⟨19, _⟩ => ⟨S160000x512, .f32⟩
  | .hbm, ⟨20, _⟩ => ⟨S_, .f32⟩
  | .hbm, ⟨21, _⟩ => ⟨S160000x512, .f32⟩
  | .hbm, ⟨22, _⟩ => ⟨S160000x512, .f32⟩
  | .hbm, ⟨23, _⟩ => ⟨S_, .f32⟩
  | .hbm, ⟨24, _⟩ => ⟨S10000x512, .f32⟩
  | .hbm, ⟨25, _⟩ => ⟨S160000x1, .i32⟩
  | .hbm, ⟨26, _⟩ => ⟨S10000x512, .f32⟩
  | .hbm, ⟨27, _⟩ => ⟨S_, .i32⟩
  | .hbm, ⟨28, _⟩ => ⟨S160000, .i32⟩
  | .hbm, ⟨29, _⟩ => ⟨S160000, .i1⟩
  | .hbm, ⟨30, _⟩ => ⟨S_, .i32⟩
  | .hbm, ⟨31, _⟩ => ⟨S160000, .i32⟩
  | .hbm, ⟨32, _⟩ => ⟨S160000, .i32⟩
  | .hbm, ⟨33, _⟩ => ⟨S160000, .i32⟩
  | .hbm, ⟨34, _⟩ => ⟨S160000x1, .i32⟩
  | .hbm, ⟨35, _⟩ => ⟨S160000x512, .f32⟩
  | .hbm, ⟨36, _⟩ => ⟨S_, .i32⟩
  | .hbm, ⟨37, _⟩ => ⟨S160000, .i32⟩
  | .hbm, ⟨38, _⟩ => ⟨S160000, .i1⟩
  | .hbm, ⟨39, _⟩ => ⟨S_, .i32⟩
  | .hbm, ⟨40, _⟩ => ⟨S160000, .i32⟩
  | .hbm, ⟨41, _⟩ => ⟨S160000, .i32⟩
  | .hbm, ⟨42, _⟩ => ⟨S160000, .i32⟩
  | .hbm, ⟨43, _⟩ => ⟨S160000x1, .i32⟩
  | .hbm, ⟨44, _⟩ => ⟨S160000x512, .f32⟩
  | .hbm, ⟨45, _⟩ => ⟨S160000x512, .f32⟩
  | .hbm, ⟨46, _⟩ => ⟨S1x512x512, .f32⟩
  | .hbm, ⟨47, _⟩ => ⟨S512x512, .f32⟩
  | .hbm, ⟨48, _⟩ => ⟨S1x512, .f32⟩
  | .hbm, ⟨49, _⟩ => ⟨S512, .f32⟩
  | .hbm, ⟨50, _⟩ => ⟨S1x512, .f32⟩
  | .hbm, ⟨51, _⟩ => ⟨S160000x512, .f32⟩
  | .hbm, ⟨52, _⟩ => ⟨S_, .f32⟩
  | .hbm, ⟨53, _⟩ => ⟨S160000x512, .f32⟩
  | .hbm, ⟨54, _⟩ => ⟨S160000x512, .f32⟩
  | .hbm, ⟨55, _⟩ => ⟨S_, .f32⟩
  | .hbm, ⟨56, _⟩ => ⟨S10000x512, .f32⟩
  | .hbm, ⟨57, _⟩ => ⟨S160000x1, .i32⟩
  | .hbm, ⟨58, _⟩ => ⟨S10000x512, .f32⟩
  | .hbm, ⟨59, _⟩ => ⟨S_, .i32⟩
  | .hbm, ⟨60, _⟩ => ⟨S160000, .i32⟩
  | .hbm, ⟨61, _⟩ => ⟨S160000, .i1⟩
  | .hbm, ⟨62, _⟩ => ⟨S_, .i32⟩
  | .hbm, ⟨63, _⟩ => ⟨S160000, .i32⟩
  | .hbm, ⟨64, _⟩ => ⟨S160000, .i32⟩
  | .hbm, ⟨65, _⟩ => ⟨S160000, .i32⟩
  | .hbm, ⟨66, _⟩ => ⟨S160000x1, .i32⟩
  | .hbm, ⟨67, _⟩ => ⟨S160000x512, .f32⟩
  | .hbm, ⟨68, _⟩ => ⟨S_, .i32⟩
  | .hbm, ⟨69, _⟩ => ⟨S160000, .i32⟩
  | .hbm, ⟨70, _⟩ => ⟨S160000, .i1⟩
  | .hbm, ⟨71, _⟩ => ⟨S_, .i32⟩
  | .hbm, ⟨72, _⟩ => ⟨S160000, .i32⟩
  | .hbm, ⟨73, _⟩ => ⟨S160000, .i32⟩
  | .hbm, ⟨74, _⟩ => ⟨S160000, .i32⟩
  | .hbm, ⟨75, _⟩ => ⟨S160000x1, .i32⟩
  | .hbm, ⟨76, _⟩ => ⟨S160000x512, .f32⟩
  | .hbm, ⟨77, _⟩ => ⟨S160000x512, .f32⟩
  | .hbm, ⟨78, _⟩ => ⟨S1x512x512, .f32⟩
  | .hbm, ⟨79, _⟩ => ⟨S512x512, .f32⟩
  | .hbm, ⟨80, _⟩ => ⟨S1x512, .f32⟩
  | .hbm, ⟨81, _⟩ => ⟨S512, .f32⟩
  | .hbm, ⟨82, _⟩ => ⟨S1x512, .f32⟩
  | .hbm, ⟨83, _⟩ => ⟨S160000x512, .f32⟩
  | .hbm, ⟨84, _⟩ => ⟨S_, .f32⟩
  | .hbm, ⟨85, _⟩ => ⟨S160000x512, .f32⟩
  | .hbm, ⟨86, _⟩ => ⟨S160000x512, .f32⟩
  | .hbm, ⟨87, _⟩ => ⟨S_, .f32⟩
  | .hbm, ⟨88, _⟩ => ⟨S10000x512, .f32⟩
  | .hbm, ⟨89, _⟩ => ⟨S160000x1, .i32⟩
  | .hbm, ⟨90, _⟩ => ⟨S10000x512, .f32⟩
  | .hbm, ⟨91, _⟩ => ⟨S_, .i32⟩
  | .hbm, ⟨92, _⟩ => ⟨S160000, .i32⟩
  | .hbm, ⟨93, _⟩ => ⟨S160000, .i1⟩
  | .hbm, ⟨94, _⟩ => ⟨S_, .i32⟩
  | .hbm, ⟨95, _⟩ => ⟨S160000, .i32⟩
  | .hbm, ⟨96, _⟩ => ⟨S160000, .i32⟩
  | .hbm, ⟨97, _⟩ => ⟨S160000, .i32⟩
  | .hbm, ⟨98, _⟩ => ⟨S160000x1, .i32⟩
  | .hbm, ⟨99, _⟩ => ⟨S160000x512, .f32⟩
  | .hbm, ⟨100, _⟩ => ⟨S_, .i32⟩
  | .hbm, ⟨101, _⟩ => ⟨S160000, .i32⟩
  | .hbm, ⟨102, _⟩ => ⟨S160000, .i1⟩
  | .hbm, ⟨103, _⟩ => ⟨S_, .i32⟩
  | .hbm, ⟨104, _⟩ => ⟨S160000, .i32⟩
  | .hbm, ⟨105, _⟩ => ⟨S160000, .i32⟩
  | .hbm, ⟨106, _⟩ => ⟨S160000, .i32⟩
  | .hbm, ⟨107, _⟩ => ⟨S160000x1, .i32⟩
  | .hbm, ⟨108, _⟩ => ⟨S160000x512, .f32⟩
  | .hbm, ⟨109, _⟩ => ⟨S160000x512, .f32⟩
  | .hbm, ⟨110, _⟩ => ⟨S1x512x512, .f32⟩
  | .hbm, ⟨111, _⟩ => ⟨S512x512, .f32⟩
  | .hbm, ⟨112, _⟩ => ⟨S1x512, .f32⟩
  | .hbm, ⟨113, _⟩ => ⟨S512, .f32⟩
  | .hbm, ⟨114, _⟩ => ⟨S1x512, .f32⟩
  | .hbm, ⟨115, _⟩ => ⟨S160000x512, .f32⟩
  | .hbm, ⟨116, _⟩ => ⟨S_, .f32⟩
  | .hbm, ⟨117, _⟩ => ⟨S10000x512, .f32⟩
  | .hbm, ⟨118, _⟩ => ⟨S160000x1, .i32⟩
  | .hbm, ⟨119, _⟩ => ⟨S10000x512, .f32⟩
  | .local _ .vmem, ⟨0, _⟩ => ⟨S3200x512, .f32⟩
  | .local _ .vmem, ⟨1, _⟩ => ⟨S3200x512, .f32⟩
  | .local _ .vmem, ⟨2, _⟩ => ⟨S3200x512, .f32⟩
  | .local _ .vmem, ⟨3, _⟩ => ⟨S3200x512, .f32⟩
  | .local _ .vmem, ⟨4, _⟩ => ⟨S512x512, .f32⟩
  | .local _ .vmem, ⟨5, _⟩ => ⟨S1x512, .f32⟩
  | .local _ .vmem, ⟨6, _⟩ => ⟨S3200x512, .f32⟩
  | .local _ .vmem, ⟨7, _⟩ => ⟨S3200x512, .f32⟩
  | .local _ .vmem, ⟨8, _⟩ => ⟨S3200x512, .f32⟩
  | .local _ .vmem, ⟨9, _⟩ => ⟨S3200x512, .f32⟩
  | .local _ .vmem, ⟨10, _⟩ => ⟨S3200x512, .f32⟩
  | .local _ .vmem, ⟨11, _⟩ => ⟨S3200x512, .f32⟩
  | .local _ .vmem, ⟨12, _⟩ => ⟨S512x512, .f32⟩
  | .local _ .vmem, ⟨13, _⟩ => ⟨S1x512, .f32⟩
  | .local _ .vmem, ⟨14, _⟩ => ⟨S3200x512, .f32⟩
  | .local _ .vmem, ⟨15, _⟩ => ⟨S3200x512, .f32⟩
  | .local _ .vmem, ⟨16, _⟩ => ⟨S3200x512, .f32⟩
  | .local _ .vmem, ⟨17, _⟩ => ⟨S3200x512, .f32⟩
  | .local _ .vmem, ⟨18, _⟩ => ⟨S3200x512, .f32⟩
  | .local _ .vmem, ⟨19, _⟩ => ⟨S3200x512, .f32⟩
  | .local _ .vmem, ⟨20, _⟩ => ⟨S512x512, .f32⟩
  | .local _ .vmem, ⟨21, _⟩ => ⟨S1x512, .f32⟩
  | .local _ .vmem, ⟨22, _⟩ => ⟨S3200x512, .f32⟩
  | .local _ .vmem, ⟨23, _⟩ => ⟨S3200x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call1_cst : Ref sig .tc := ⟨.hbm, 52, rfl⟩
abbrev main_call1_v0 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_6 : Ref sig .tc := ⟨.hbm, 59, rfl⟩
abbrev main_v41 : Ref sig .tc := ⟨.hbm, 60, rfl⟩
abbrev main_v42 : Ref sig .tc := ⟨.hbm, 61, rfl⟩
abbrev main_c_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call2_cst : Ref sig .tc := ⟨.hbm, 84, rfl⟩
abbrev main_call2_v0 : Ref sig .tc := ⟨.hbm, 85, rfl⟩
abbrev main_v62 : Ref sig .tc := ⟨.hbm, 86, rfl⟩
abbrev main_cst_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_c_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_13 : Ref sig .tc := ⟨.hbm, 100, rfl⟩
abbrev main_v73 : Ref sig .tc := ⟨.hbm, 101, rfl⟩
abbrev main_v74 : Ref sig .tc := ⟨.hbm, 102, rfl⟩
abbrev main_c_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_15 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3200x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S3200x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3200x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3200x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S3200x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S160000x512 : S_.BroadcastsInDim S160000x512 (![] : Fin 0 → Fin S160000x512.rank)
  bcast_S_S10000x512 : S_.BroadcastsInDim S10000x512 (![] : Fin 0 → Fin S10000x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  shapeCasts_S512_S1x512 : S512.ShapeCasts S1x512
  inb_S3200x512_S3200x512_0_0 : ∀ a, (![0, 0] : Fin 2 → Nat) a + S3200x512.size a ≤ S3200x512.size a
  h_S3200x512 : 0 < S3200x512.numel
  shapeCasts_S3200x512_S3200x512 : S3200x512.ShapeCasts S3200x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S3200x512 : S1x512.Broadcasts S3200x512
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  gather_S160000x512_S160000x1_S160000x512_1_0_n_n_0_1_1512_wf : GatherDims.WF S160000x512 S160000x1 S160000x512 [1] [0] [] [0] [] 1 ![1, 512]
  dot_S3200x512_S512x512_S3200x512_1_1_0_0_n_n_wf : DotDims.WF S3200x512 S512x512 S3200x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x512.size a ≤ S160000x512.size a
  hwx0_0 : ∀ i : grid0.Coords, EltTy.bits .f32 = 32 ∨ (Rect.block (s := S160000x512) S3200x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x512.size a ≤ S160000x512.size a
  hwx0_1 : ∀ i : grid0.Coords, EltTy.bits .f32 = 32 ∨ (Rect.block (s := S160000x512) S3200x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3200x512.size a ≤ S160000x512.size a
  hwx0_4 : ∀ i : grid0.Coords, EltTy.bits .f32 = 32 ∨ (Rect.block (s := S160000x512) S3200x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x512.size a ≤ S160000x512.size a
  hwx1_0 : ∀ i : grid1.Coords, EltTy.bits .f32 = 32 ∨ (Rect.block (s := S160000x512) S3200x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x512.size a ≤ S160000x512.size a
  hwx1_1 : ∀ i : grid1.Coords, EltTy.bits .f32 = 32 ∨ (Rect.block (s := S160000x512) S3200x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3200x512.size a ≤ S160000x512.size a
  hwx1_4 : ∀ i : grid1.Coords, EltTy.bits .f32 = 32 ∨ (Rect.block (s := S160000x512) S3200x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x512.size a ≤ S160000x512.size a
  hwx2_0 : ∀ i : grid2.Coords, EltTy.bits .f32 = 32 ∨ (Rect.block (s := S160000x512) S3200x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x512.size a ≤ S160000x512.size a
  hwx2_1 : ∀ i : grid2.Coords, EltTy.bits .f32 = 32 ∨ (Rect.block (s := S160000x512) S3200x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3200x512.size a ≤ S160000x512.size a
  hwx2_4 : ∀ i : grid2.Coords, EltTy.bits .f32 = 32 ∨ (Rect.block (s := S160000x512) S3200x512.size (cc2_transform_4 i) (hinb2_4 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def gather_S160000x512_S160000x1_S160000x512_1_0_n_n_0_1_1512 : GatherDims S160000x512 S160000x1 S160000x512 where
  offsetDims := [1]
  collapsedSliceDims := [0]
  operandBatchingDims := []
  startIndicesBatchingDims := []
  startIndexMap := [0]
  indexVectorDim := 1
  sliceSizes := ![1, 512]
  wf := gather_S160000x512_S160000x1_S160000x512_1_0_n_n_0_1_1512_wf
def dot_S3200x512_S512x512_S3200x512_1_1_0_0_n_n : DotDims S3200x512 S512x512 S3200x512 where
  lhsContracting := [1]
  rhsContracting := [1]
  lhsNonContracting := [0]
  rhsNonContracting := [0]
  lhsBatch := []
  rhsBatch := []
  wf := dot_S3200x512_S512x512_S3200x512_1_1_0_0_n_n_wf

abbrev win0_0 : Pipeline.Window sig grid0 :=
  Pipeline.Window.ofSpec (Memref.whole main_v30) S3200x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S3200x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S3200x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v55) S3200x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S3200x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v57) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S3200x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v80) S3200x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S3200x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v82) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v85) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v86) S3200x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x512 : Shape := ⟨2, ![10000, 512]⟩
abbrev S160000x512 : Shape := ⟨2, ![160000, 512]⟩
abbrev S3x512x512 : Shape := ⟨3, ![3, 512, 512]⟩
abbrev S3x512 : Shape := ⟨2, ![3, 512]⟩
abbrev S2x160000 : Shape := ⟨2, ![2, 160000]⟩
abbrev S160000 : Shape := ⟨1, ![160000]⟩
abbrev S1x160000 : Shape := ⟨2, ![1, 160000]⟩
abbrev S_ : Shape := ⟨0, ![]⟩
abbrev S160000x1 : Shape := ⟨2, ![160000, 1]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩

abbrev nBuf : Space → Nat
  | .hbm => 129
  | .vmem => 0
  | .smem => 0
  | _ => 0

abbrev hbmTy0_0 (i : Nat) : BufTy := match i % 128 with
  | 0 => ⟨S10000x512, .f32⟩
  | 1 => ⟨S160000x512, .f32⟩
  | 2 => ⟨S3x512x512, .f32⟩
  | 3 => ⟨S3x512, .f32⟩
  | 4 => ⟨S2x160000, .i32⟩
  | 5 => ⟨S160000, .i32⟩
  | 6 => ⟨S1x160000, .i32⟩
  | 7 => ⟨S160000, .i32⟩
  | 8 => ⟨S1x160000, .i32⟩
  | 9 => ⟨S160000, .i32⟩
  | 10 => ⟨S_, .i32⟩
  | 11 => ⟨S160000, .i32⟩
  | 12 => ⟨S160000, .i1⟩
  | 13 => ⟨S_, .i32⟩
  | 14 => ⟨S160000, .i32⟩
  | 15 => ⟨S160000, .i32⟩
  | 16 => ⟨S160000, .i32⟩
  | 17 => ⟨S160000x1, .i32⟩
  | 18 => ⟨S160000x512, .f32⟩
  | 19 => ⟨S160000x512, .f32⟩
  | 20 => ⟨S_, .f32⟩
  | 21 => ⟨S160000x512, .f32⟩
  | 22 => ⟨S160000x512, .f32⟩
  | 23 => ⟨S_, .f32⟩
  | 24 => ⟨S10000x512, .f32⟩
  | 25 => ⟨S160000x1, .i32⟩
  | 26 => ⟨S10000x512, .f32⟩
  | 27 => ⟨S_, .i32⟩
  | 28 => ⟨S160000, .i32⟩
  | 29 => ⟨S160000, .i1⟩
  | 30 => ⟨S_, .i32⟩
  | 31 => ⟨S160000, .i32⟩
  | 32 => ⟨S160000, .i32⟩
  | 33 => ⟨S160000, .i32⟩
  | 34 => ⟨S160000x1, .i32⟩
  | 35 => ⟨S160000x512, .f32⟩
  | 36 => ⟨S_, .i32⟩
  | 37 => ⟨S160000, .i32⟩
  | 38 => ⟨S160000, .i1⟩
  | 39 => ⟨S_, .i32⟩
  | 40 => ⟨S160000, .i32⟩
  | 41 => ⟨S160000, .i32⟩
  | 42 => ⟨S160000, .i32⟩
  | 43 => ⟨S160000x1, .i32⟩
  | 44 => ⟨S160000x512, .f32⟩
  | 45 => ⟨S160000x512, .f32⟩
  | 46 => ⟨S1x512x512, .f32⟩
  | 47 => ⟨S512x512, .f32⟩
  | 48 => ⟨S160000x512, .f32⟩
  | 49 => ⟨S1x512, .f32⟩
  | 50 => ⟨S512, .f32⟩
  | 51 => ⟨S1x512, .f32⟩
  | 52 => ⟨S160000x512, .f32⟩
  | 53 => ⟨S160000x512, .f32⟩
  | 54 => ⟨S160000x512, .f32⟩
  | 55 => ⟨S_, .f32⟩
  | 56 => ⟨S160000x512, .f32⟩
  | 57 => ⟨S160000x512, .f32⟩
  | 58 => ⟨S_, .f32⟩
  | 59 => ⟨S10000x512, .f32⟩
  | 60 => ⟨S160000x1, .i32⟩
  | 61 => ⟨S10000x512, .f32⟩
  | 62 => ⟨S_, .i32⟩
  | 63 => ⟨S160000, .i32⟩
  | 64 => ⟨S160000, .i1⟩
  | 65 => ⟨S_, .i32⟩
  | 66 => ⟨S160000, .i32⟩
  | 67 => ⟨S160000, .i32⟩
  | 68 => ⟨S160000, .i32⟩
  | 69 => ⟨S160000x1, .i32⟩
  | 70 => ⟨S160000x512, .f32⟩
  | 71 => ⟨S_, .i32⟩
  | 72 => ⟨S160000, .i32⟩
  | 73 => ⟨S160000, .i1⟩
  | 74 => ⟨S_, .i32⟩
  | 75 => ⟨S160000, .i32⟩
  | 76 => ⟨S160000, .i32⟩
  | 77 => ⟨S160000, .i32⟩
  | 78 => ⟨S160000x1, .i32⟩
  | 79 => ⟨S160000x512, .f32⟩
  | 80 => ⟨S160000x512, .f32⟩
  | 81 => ⟨S1x512x512, .f32⟩
  | 82 => ⟨S512x512, .f32⟩
  | 83 => ⟨S160000x512, .f32⟩
  | 84 => ⟨S1x512, .f32⟩
  | 85 => ⟨S512, .f32⟩
  | 86 => ⟨S1x512, .f32⟩
  | 87 => ⟨S160000x512, .f32⟩
  | 88 => ⟨S160000x512, .f32⟩
  | 89 => ⟨S160000x512, .f32⟩
  | 90 => ⟨S_, .f32⟩
  | 91 => ⟨S160000x512, .f32⟩
  | 92 => ⟨S160000x512, .f32⟩
  | 93 => ⟨S_, .f32⟩
  | 94 => ⟨S10000x512, .f32⟩
  | 95 => ⟨S160000x1, .i32⟩
  | 96 => ⟨S10000x512, .f32⟩
  | 97 => ⟨S_, .i32⟩
  | 98 => ⟨S160000, .i32⟩
  | 99 => ⟨S160000, .i1⟩
  | 100 => ⟨S_, .i32⟩
  | 101 => ⟨S160000, .i32⟩
  | 102 => ⟨S160000, .i32⟩
  | 103 => ⟨S160000, .i32⟩
  | 104 => ⟨S160000x1, .i32⟩
  | 105 => ⟨S160000x512, .f32⟩
  | 106 => ⟨S_, .i32⟩
  | 107 => ⟨S160000, .i32⟩
  | 108 => ⟨S160000, .i1⟩
  | 109 => ⟨S_, .i32⟩
  | 110 => ⟨S160000, .i32⟩
  | 111 => ⟨S160000, .i32⟩
  | 112 => ⟨S160000, .i32⟩
  | 113 => ⟨S160000x1, .i32⟩
  | 114 => ⟨S160000x512, .f32⟩
  | 115 => ⟨S160000x512, .f32⟩
  | 116 => ⟨S1x512x512, .f32⟩
  | 117 => ⟨S512x512, .f32⟩
  | 118 => ⟨S160000x512, .f32⟩
  | 119 => ⟨S1x512, .f32⟩
  | 120 => ⟨S512, .f32⟩
  | 121 => ⟨S1x512, .f32⟩
  | 122 => ⟨S160000x512, .f32⟩
  | 123 => ⟨S160000x512, .f32⟩
  | 124 => ⟨S160000x512, .f32⟩
  | 125 => ⟨S_, .f32⟩
  | 126 => ⟨S10000x512, .f32⟩
  | 127 => ⟨S160000x1, .i32⟩
  | _ => ⟨S10000x512, .f32⟩

abbrev hbmTy0_1 (i : Nat) : BufTy := match i % 128 with
  | 0 => ⟨S10000x512, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call1_cst : Ref sig .tc := ⟨.hbm, 55, rfl⟩
abbrev main_call1_v0 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_6 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_8 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_call2_cst : Ref sig .tc := ⟨.hbm, 90, rfl⟩
abbrev main_call2_v0 : Ref sig .tc := ⟨.hbm, 91, rfl⟩
abbrev main_v68 : Ref sig .tc := ⟨.hbm, 92, rfl⟩
abbrev main_cst_10 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_11 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_13 : Ref sig .tc := ⟨.hbm, 106, rfl⟩
abbrev main_v79 : Ref sig .tc := ⟨.hbm, 107, rfl⟩
abbrev main_v80 : Ref sig .tc := ⟨.hbm, 108, rfl⟩
abbrev main_c_14 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_15 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S160000x512 : S_.BroadcastsInDim S160000x512 (![] : Fin 0 → Fin S160000x512.rank)
  bcast_S_S10000x512 : S_.BroadcastsInDim S10000x512 (![] : Fin 0 → Fin S10000x512.rank)
  slices_S3x512x512_S1x512x512_0_0_0 : S3x512x512.Slices ![0, 0, 0] S1x512x512
  shapeCasts_S1x512x512_S512x512 : S1x512x512.ShapeCasts S512x512
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  bcast_S1x512_S160000x512_0_1 : S1x512.BroadcastsInDim S160000x512 (![0, 1] : Fin 2 → Fin S160000x512.rank)
  slices_S3x512x512_S1x512x512_1_0_0 : S3x512x512.Slices ![1, 0, 0] S1x512x512
  slices_S3x512_S1x512_1_0 : S3x512.Slices ![1, 0] S1x512
  slices_S3x512x512_S1x512x512_2_0_0 : S3x512x512.Slices ![2, 0, 0] S1x512x512
  slices_S3x512_S1x512_2_0 : S3x512.Slices ![2, 0] S1x512
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  gather_S160000x512_S160000x1_S160000x512_1_0_n_n_0_1_1512_wf : GatherDims.WF S160000x512 S160000x1 S160000x512 [1] [0] [] [0] [] 1 ![1, 512]
  dot_S160000x512_S512x512_S160000x512_1_1_0_0_n_n_wf : DotDims.WF S160000x512 S512x512 S160000x512 [1] [1] [0] [0] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def gather_S160000x512_S160000x1_S160000x512_1_0_n_n_0_1_1512 : GatherDims S160000x512 S160000x1 S160000x512 where
  offsetDims := [1]
  collapsedSliceDims := [0]
  operandBatchingDims := []
  startIndicesBatchingDims := []
  startIndexMap := [0]
  indexVectorDim := 1
  sliceSizes := ![1, 512]
  wf := gather_S160000x512_S160000x1_S160000x512_1_0_n_n_0_1_1512_wf
def dot_S160000x512_S512x512_S160000x512_1_1_0_0_n_n : DotDims S160000x512 S512x512 S160000x512 where
  lhsContracting := [1]
  rhsContracting := [1]
  lhsNonContracting := [0]
  rhsNonContracting := [0]
  lhsBatch := []
  rhsBatch := []
  wf := dot_S160000x512_S512x512_S160000x512_1_1_0_0_n_n_wf

class Facts : Prop extends Facts₀ where

variable [Facts]
-- ==== Proof.Layer.lean ====
/-
  One message-passing layer of the edge network, as pure functions at the ideal instance, and the law that joins the
  kernel's form of its linear step to the reference's.

  An edge array `e : [160000, 512]` is updated by
      h      = max(e, 0)
      node   = segment-sum of h's rows over the destination index      ([10000, 512])
      msg    = node[src] - h[rev]                                        ([160000, 512])
      e'     = e + (msg · Wᵀ + b)
  The kernel computes the last line as `(msg · Wᵀ + b) + e`, with the bias a [1, 512] row; the reference as
  `e + (msg · Wᵀ + b)`, with the bias a [512] vector broadcast twice. Over the extended reals the two agree entry by
  entry: both products are the same sum over the contracted axis, and addition is commutative there (no finiteness
  is needed: nothing is cancelled or distributed).
-/
import proofs.«140449_j9801115369512_1_alg».proof.Proof.Gen.KernelIdeal
import proofs.«140449_j9801115369512_1_alg».proof.Proof.Gen.ReferenceIdeal
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.TcCoe

namespace Cert.MsgPass

open Cert.KernelIdeal Cert.KernelIdeal.Facts₀

/-! ## The arrays -/

abbrev EdgeArr := FVec Ideal S160000x512 .f32
abbrev NodeArr := FVec Ideal S10000x512 .f32
abbrev IdxArr := (⟨S160000, .i32⟩ : BufTy).Contents (Elt Ideal)
abbrev IdxCol := (⟨S160000x1, .i32⟩ : BufTy).Contents (Elt Ideal)
abbrev PairArr := (⟨S2x160000, .i32⟩ : BufTy).Contents (Elt Ideal)
abbrev WeightArr := FVec Ideal S512x512 .f32
abbrev BiasVec := FVec Ideal S512 .f32
abbrev BiasRow := FVec Ideal S1x512 .f32
abbrev WeightStack := FVec Ideal S3x512x512 .f32
abbrev BiasStack := FVec Ideal S3x512 .f32

/-! ## The index words -/

/-- Row 0 of the edge-index pair: each edge's source node. -/
def srcWords (x4 : PairArr) : IdxArr :=
  shapeCast _ (extractStridedSlice S1x160000 ![0, 0] x4 slices_S2x160000_S1x160000_0_0) shapeCasts_S1x160000_S160000

/-- Row 1 of the edge-index pair: each edge's destination node. -/
def dstWords (x4 : PairArr) : IdxArr :=
  shapeCast _ (extractStridedSlice S1x160000 ![1, 0] x4 slices_S2x160000_S1x160000_1_0) shapeCasts_S1x160000_S160000

/-- An index vector as the column a row-gather takes, a negative word first moved up by the axis's extent `n`. -/
def wrapCol (n : BitVec 32) (s : IdxArr) : IdxCol :=
  broadcastInDim S160000x1 ![0] bcast_S160000_S160000x1_0
    (select (cmpi .slt s (broadcastInDim S160000 ![] bcast_S_S160000 (constantI S_ 32 0#32)))
      (addi s (broadcastInDim S160000 ![] bcast_S_S160000 (constantI S_ 32 n))) s)

/-! ## One layer's messages -/

/-- `max(e, 0)`, entry by entry. -/
def relu (e : EdgeArr) : EdgeArr :=
  maximumf (F := Ideal) e (broadcastInDim S160000x512 ![] bcast_S_S160000x512 (constant (F := Ideal) S_ .f32 0x00000000#32))

/-- The rows of `h` summed into the node each edge points at. -/
def nodeSum (d : IdxArr) (h : EdgeArr) : NodeArr :=
  Host.scatterAdd (F := Ideal) scatter_S10000x512_S160000x1_S160000x512_1_0_0_1
    (broadcastInDim S10000x512 ![] bcast_S_S10000x512 (constant (F := Ideal) S_ .f32 0x00000000#32))
    (broadcastInDim S160000x1 ![0] bcast_S160000_S160000x1_0 d) h

/-- The message on each edge: its source node's sum less the reverse edge's own activation. -/
def edgeMsgs (s d r : IdxArr) (e : EdgeArr) : EdgeArr :=
  subf (F := Ideal) (Host.gather gather_S10000x512_S160000x1_S160000x512_1_0_n_n_0_1_1512 (nodeSum d (relu e)) (wrapCol 10000#32 s))
    (Host.gather gather_S160000x512_S160000x1_S160000x512_1_0_n_n_0_1_1512 (relu e) (wrapCol 160000#32 r))

/-- The edge array the layers start from: each edge's source-node features plus its own. -/
def initEdges (x0 : NodeArr) (x1 : EdgeArr) (s : IdxArr) : EdgeArr :=
  addf (F := Ideal) (Host.gather gather_S10000x512_S160000x1_S160000x512_1_0_n_n_0_1_1512 x0 (wrapCol 10000#32 s)) x1

/-- The node read-out: the rows of the last edge array summed into the node each edge points at. -/
def readOut (d : IdxArr) (e : EdgeArr) : NodeArr := nodeSum d e

/-! ## The linear step with its residual, in the kernel's form and in the reference's -/

/-- Row `i 0` of the message array at column `k`. -/
abbrev msgAt (i : S160000x512.Idx) (k : Fin 512) : S160000x512.Idx := fun a => match a with
  | ⟨0, _⟩ => ⟨(i 0).val, (i 0).isLt⟩
  | ⟨1, _⟩ => ⟨k.val, k.isLt⟩
/-- Row `i 1` of the weight (its output feature) at column `k`. -/
abbrev weightAt (i : S160000x512.Idx) (k : Fin 512) : S512x512.Idx := fun a => match a with
  | ⟨0, _⟩ => ⟨(i 1).val, (i 1).isLt⟩
  | ⟨1, _⟩ => ⟨k.val, k.isLt⟩
/-- The bias row's entry for output feature `i 1`. -/
abbrev biasAt (i : S160000x512.Idx) : S1x512.Idx := fun a => match a with
  | ⟨0, _⟩ => ⟨0, Nat.one_pos⟩
  | ⟨1, _⟩ => ⟨(i 1).val, (i 1).isLt⟩

/-- The bias vector's entry for output feature `i 1`. -/
abbrev biasVecAt (i : S160000x512.Idx) : S512.Idx := fun a => match a with
  | ⟨0, _⟩ => ⟨(i 1).val, (i 1).isLt⟩

/-- The kernel's step as one function of whole arrays: `(msg · Wᵀ + b) + e`, entry by entry. -/
def linResK (em eh : EdgeArr) (W : WeightArr) (b : BiasRow) : EdgeArr := fun i =>
  ((∑ k : Fin 512, em (msgAt i k) * W (weightAt i k)) + b (biasAt i)) + eh i

/-- The reference's step: `e + (dot_general(msg, W) + broadcast b)`. -/
def linResR (em eh : EdgeArr) (W : WeightArr) (b : BiasVec) : EdgeArr :=
  addf (F := Ideal) eh (addf (F := Ideal) (Host.dotGeneral (F := Ideal) (φ₁ := .f32) (φ₂ := .f32) Cert.ReferenceIdeal.dot_S160000x512_S512x512_S160000x512_1_1_0_0_n_n none em W)
    (broadcastInDim S160000x512 ![0, 1] Cert.ReferenceIdeal.Facts₀.bcast_S1x512_S160000x512_0_1
      (broadcastInDim S1x512 ![1] Cert.ReferenceIdeal.Facts₀.bcast_S512_S1x512_1 b)))

end Cert.MsgPass

end
-- ==== Proof.LinearLaw.lean ====
/-
  The law that joins the two forms of the linear step: entry (e, f) of the kernel's `(msg · Wᵀ + b) + eh` and of the
  reference's `eh + (dot_general(msg, W) + broadcast b)` are the same extended real. The reference's product at an
  entry is the sum over the contracted axis of message row `e` times weight row `f`; the bias row `[1, 512]` made by
  a reshape and the bias broadcast `[512] → [1, 512] → [160000, 512]` both read the bias vector at `f`; and addition
  of extended reals is commutative.
-/
import proofs.«140449_j9801115369512_1_alg».proof.Proof.Layer
import proofs.«140449_j9801115369512_1_alg».proof.Proof.Gen.ReferenceIdeal.Read

noncomputable section

open Idealize.ShloMosaic Idealize.ShloMosaic.TcCoe

namespace Cert.MsgPass

open Cert.KernelIdeal Cert.KernelIdeal.Facts₀

/-- The reference's product at an entry: the sum over the contracted axis of message row times weight row. -/
theorem dotR_apply (em : EdgeArr) (W : WeightArr) (i : S160000x512.Idx) :
    Host.dotGeneral (F := Ideal) (φ₁ := .f32) (φ₂ := .f32) Cert.ReferenceIdeal.dot_S160000x512_S512x512_S160000x512_1_1_0_0_n_n none em W i
      = ∑ k : Fin 512, em (msgAt i k) * W (weightAt i k) := by
  simp only [Host.dotGeneral]
  rw [Ideal.dotGeneral_apply, ← Equiv.sum_comp (ValueIdx.contrEquiv1 Cert.ReferenceIdeal.dot_S160000x512_S512x512_S160000x512_1_1_0_0_n_n 512 rfl rfl).symm]
  refine Finset.sum_congr rfl fun k _ => ?_
  have hk := ValueIdx.contrEquiv1_symm_val Cert.ReferenceIdeal.dot_S160000x512_S512x512_S160000x512_1_1_0_0_n_n 512 rfl rfl k
  have el : (Cert.ReferenceIdeal.dot_S160000x512_S512x512_S160000x512_1_1_0_0_n_n).lhsIdx i ((ValueIdx.contrEquiv1 Cert.ReferenceIdeal.dot_S160000x512_S512x512_S160000x512_1_1_0_0_n_n 512 rfl rfl).symm k) = msgAt i k := funext fun a => Fin.ext (by
    match a with
    | ⟨0, _⟩ => exact Cert.ReferenceIdeal.Read.lhs_main_v33_0 _ _
    | ⟨1, _⟩ => exact (Cert.ReferenceIdeal.Read.lhs_main_v33_1 _ _).trans hk)
  have er : (Cert.ReferenceIdeal.dot_S160000x512_S512x512_S160000x512_1_1_0_0_n_n).rhsIdx i ((ValueIdx.contrEquiv1 Cert.ReferenceIdeal.dot_S160000x512_S512x512_S160000x512_1_1_0_0_n_n 512 rfl rfl).symm k) = weightAt i k := funext fun a => Fin.ext (by
    match a with
    | ⟨0, _⟩ => exact Cert.ReferenceIdeal.Read.rhs_main_v33_0 _ _
    | ⟨1, _⟩ => exact (Cert.ReferenceIdeal.Read.rhs_main_v33_1 _ _).trans hk)
  rw [el, er]

/-- The bias as the kernel takes it, a `[1, 512]` row reshaped from the vector, read at an entry's feature. -/
theorem biasRow_apply (b : BiasVec) (i : S160000x512.Idx) :
    shapeCast S1x512 b shapeCasts_S512_S1x512 (biasAt i) = b (biasVecAt i) :=
  shapeCast_apply b shapeCasts_S512_S1x512 (biasAt i) (biasVecAt i)
    (by rewrite [Shape.rowMajor_val_one, Shape.rowMajor_val_two]; show (i 1).val = 0 * 512 + (i 1).val; omega)

/-- The bias as the reference takes it, broadcast to every edge, read at an entry. -/
theorem biasBcast_apply (b : BiasVec) (i : S160000x512.Idx) :
    broadcastInDim S160000x512 ![0, 1] Cert.ReferenceIdeal.Facts₀.bcast_S1x512_S160000x512_0_1
      (broadcastInDim S1x512 ![1] Cert.ReferenceIdeal.Facts₀.bcast_S512_S1x512_1 b) i = b (biasVecAt i) := by
  rw [broadcastInDim_apply _ Cert.ReferenceIdeal.Facts₀.bcast_S1x512_S160000x512_0_1 _ i (biasAt i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])]
  exact broadcastInDim_apply _ Cert.ReferenceIdeal.Facts₀.bcast_S512_S1x512_1 b (biasAt i) (biasVecAt i) (fun a => match a with
    | ⟨0, _⟩ => by show (i 1).val = if (512 : Nat) = 1 then 0 else (i 1).val; rw [if_neg (by decide)])

/-- THE LAW: the kernel's step on the reshaped bias row is the reference's step on the bias vector. -/
theorem linRes_agree (em eh : EdgeArr) (W : WeightArr) (b : BiasVec) :
    linResK em eh W (shapeCast S1x512 b shapeCasts_S512_S1x512) = linResR em eh W b := by
  funext i
  show ((∑ k : Fin 512, em (msgAt i k) * W (weightAt i k)) + shapeCast S1x512 b shapeCasts_S512_S1x512 (biasAt i)) + eh i
    = eh i + (Host.dotGeneral (F := Ideal) (φ₁ := .f32) (φ₂ := .f32) Cert.ReferenceIdeal.dot_S160000x512_S512x512_S160000x512_1_1_0_0_n_n none em W i
        + broadcastInDim S160000x512 ![0, 1] Cert.ReferenceIdeal.Facts₀.bcast_S1x512_S160000x512_0_1
            (broadcastInDim S1x512 ![1] Cert.ReferenceIdeal.Facts₀.bcast_S512_S1x512_1 b) i)
  rw [biasRow_apply, biasBcast_apply, dotR_apply, add_comm]

end Cert.MsgPass

end
-- ==== Proof.Network.lean ====
/-
  The whole network over a linear step: three layers from the initial edge array, each taking its own weight and bias
  out of the stacks, then the node read-out. The kernel's network (its step on the bias reshaped to a row) and the
  reference's (its step on the bias vector) are the same function of the six inputs, because the two steps agree.
-/
import proofs.«140449_j9801115369512_1_alg».proof.Proof.Layer
import proofs.«140449_j9801115369512_1_alg».proof.Proof.LinearLaw

noncomputable section

open Idealize.ShloMosaic Idealize.ShloMosaic.TcCoe

namespace Cert.MsgPass

open Cert.KernelIdeal Cert.KernelIdeal.Facts₀

/-! ## Each layer's weight and bias -/

def weight0 (x2 : WeightStack) : WeightArr :=
  shapeCast _ (extractStridedSlice S1x512x512 ![0, 0, 0] x2 slices_S3x512x512_S1x512x512_0_0_0) shapeCasts_S1x512x512_S512x512
def weight1 (x2 : WeightStack) : WeightArr :=
  shapeCast _ (extractStridedSlice S1x512x512 ![1, 0, 0] x2 slices_S3x512x512_S1x512x512_1_0_0) shapeCasts_S1x512x512_S512x512
def weight2 (x2 : WeightStack) : WeightArr :=
  shapeCast _ (extractStridedSlice S1x512x512 ![2, 0, 0] x2 slices_S3x512x512_S1x512x512_2_0_0) shapeCasts_S1x512x512_S512x512
def bias0 (x3 : BiasStack) : BiasVec :=
  shapeCast _ (extractStridedSlice S1x512 ![0, 0] x3 slices_S3x512_S1x512_0_0) shapeCasts_S1x512_S512
def bias1 (x3 : BiasStack) : BiasVec :=
  shapeCast _ (extractStridedSlice S1x512 ![1, 0] x3 slices_S3x512_S1x512_1_0) shapeCasts_S1x512_S512
def bias2 (x3 : BiasStack) : BiasVec :=
  shapeCast _ (extractStridedSlice S1x512 ![2, 0] x3 slices_S3x512_S1x512_2_0) shapeCasts_S1x512_S512

/-- The bias as the kernel's launch takes it: the vector reshaped to a `[1, 512]` row. -/
def biasRow (b : BiasVec) : BiasRow := shapeCast S1x512 b shapeCasts_S512_S1x512

/-! ## The network -/

/-- One layer: the messages of the edge array `e`, then the linear step `lin` with its residual. -/
def layer (lin : EdgeArr → EdgeArr → WeightArr → BiasVec → EdgeArr) (s d r : IdxArr) (W : WeightArr) (b : BiasVec)
    (e : EdgeArr) : EdgeArr :=
  lin (edgeMsgs s d r e) e W b

/-- The edge array after the three layers. -/
def edgesAfter (lin : EdgeArr → EdgeArr → WeightArr → BiasVec → EdgeArr)
    (x0 : NodeArr) (x1 : EdgeArr) (x2 : WeightStack) (x3 : BiasStack) (x4 : PairArr) (x5 : IdxArr) : EdgeArr :=
  layer lin (srcWords x4) (dstWords x4) x5 (weight2 x2) (bias2 x3)
    (layer lin (srcWords x4) (dstWords x4) x5 (weight1 x2) (bias1 x3)
      (layer lin (srcWords x4) (dstWords x4) x5 (weight0 x2) (bias0 x3)
        (initEdges x0 x1 (srcWords x4))))

/-- The node array read out of it. -/
def nodesAfter (lin : EdgeArr → EdgeArr → WeightArr → BiasVec → EdgeArr)
    (x0 : NodeArr) (x1 : EdgeArr) (x2 : WeightStack) (x3 : BiasStack) (x4 : PairArr) (x5 : IdxArr) : NodeArr :=
  readOut (dstWords x4) (edgesAfter lin x0 x1 x2 x3 x4 x5)

/-- The kernel's step as a function of the bias VECTOR (its launch is handed the reshaped row). -/
def linK (em eh : EdgeArr) (W : WeightArr) (b : BiasVec) : EdgeArr := linResK em eh W (biasRow b)

/-- The two steps are one function. -/
theorem linK_eq_linResR : linK = linResR :=
  funext fun em => funext fun eh => funext fun W => funext fun b => linRes_agree em eh W b

/-- THE TWO NETWORKS ARE ONE FUNCTION. -/
theorem edgesAfter_agree : edgesAfter linK = edgesAfter linResR := by rw [linK_eq_linResR]
theorem nodesAfter_agree : nodesAfter linK = nodesAfter linResR := by rw [linK_eq_linResR]

end Cert.MsgPass

end
-- ==== Proof.Fold0.lean ====
/-
  The kernel's program read as the network, first part. Between its launches the program runs the same host operations
  as the reference (index words, the negative-index wrap, relu, the segment sum, the two row gathers, the weight and bias
  slices), and each launch's output array is the kernel's linear step of the four arrays its windows stage. Here: the six
  inputs as launched, the edge array after each layer over the kernel's step `linK`, and the buffer contents when the
  first launch is entered, read off the host operations before it from the launch memory.
-/
import proofs.«140449_j9801115369512_1_alg».proof.Proof.Gen.KernelIdeal.Frame
import proofs.«140449_j9801115369512_1_alg».proof.Proof.Network
import Idealize.ShloMosaic.Lib.StableHlo.Run

set_option maxRecDepth 16384

noncomputable section

open Idealize.ShloMosaic Idealize.ShloMosaic.TcCoe Idealize.SL.Sem Idealize.ShloMosaic.StableHlo

namespace Cert.MsgPass.Fold

open Cert.KernelIdeal Cert.KernelIdeal.Gen Cert.MsgPass

variable (m : (ℓ : Loc nD τ sig) → Buf (Elt Ideal) ℓ) (ρ : Dev nD → PrngReg) (c : Dev nD)

/-! ## The six inputs as launched, and the edge array after each layer -/

abbrev in0 : NodeArr := m ((c.tc : Thread nD τ).loc main_arg0)
abbrev in1 : EdgeArr := m ((c.tc : Thread nD τ).loc main_arg1)
abbrev in2 : WeightStack := m ((c.tc : Thread nD τ).loc main_arg2)
abbrev in3 : BiasStack := m ((c.tc : Thread nD τ).loc main_arg3)
abbrev in4 : PairArr := m ((c.tc : Thread nD τ).loc main_arg4)
abbrev in5 : IdxArr := m ((c.tc : Thread nD τ).loc main_arg5)

def edges0 : EdgeArr := initEdges (in0 m c) (in1 m c) (srcWords (in4 m c))
def edges1 : EdgeArr := layer linK (srcWords (in4 m c)) (dstWords (in4 m c)) (in5 m c) (weight0 (in2 m c)) (bias0 (in3 m c)) (edges0 m c)
def edges2 : EdgeArr := layer linK (srcWords (in4 m c)) (dstWords (in4 m c)) (in5 m c) (weight1 (in2 m c)) (bias1 (in3 m c)) (edges1 m c)
def edges3 : EdgeArr := layer linK (srcWords (in4 m c)) (dstWords (in4 m c)) (in5 m c) (weight2 (in2 m c)) (bias2 (in3 m c)) (edges2 m c)

theorem edges3_eq : edges3 m c = edgesAfter linK (in0 m c) (in1 m c) (in2 m c) (in3 m c) (in4 m c) (in5 m c) := rfl

/-! ## Up to the first launch -/

theorem src3 : (V3 m ρ c main_v1 : IdxArr) = srcWords (in4 m c) := by
  show StableHlo.after hostOps0_2 (StableHlo.after hostOps0_1 (StableHlo.after hostOps0 (W0 m ρ c))) (Proc.devRef .tc main_v1) = _
  after_results_simp
  rfl
theorem dst3 : (V3 m ρ c main_v3 : IdxArr) = dstWords (in4 m c) := by
  show StableHlo.after hostOps0_2 (StableHlo.after hostOps0_1 (StableHlo.after hostOps0 (W0 m ρ c))) (Proc.devRef .tc main_v3) = _
  after_results_simp
  rfl
theorem rev3 : (V3 m ρ c main_arg5 : IdxArr) = in5 m c := by
  show StableHlo.after hostOps0_2 (StableHlo.after hostOps0_1 (StableHlo.after hostOps0 (W0 m ρ c))) (Proc.devRef .tc main_arg5) = _
  after_results_simp <;> rfl
theorem wts3 : (V3 m ρ c main_arg2 : WeightStack) = in2 m c := by
  show StableHlo.after hostOps0_2 (StableHlo.after hostOps0_1 (StableHlo.after hostOps0 (W0 m ρ c))) (Proc.devRef .tc main_arg2) = _
  after_results_simp <;> rfl
theorem bss3 : (V3 m ρ c main_arg3 : BiasStack) = in3 m c := by
  show StableHlo.after hostOps0_2 (StableHlo.after hostOps0_1 (StableHlo.after hostOps0 (W0 m ρ c))) (Proc.devRef .tc main_arg3) = _
  after_results_simp <;> rfl
/-- The residual operand of launch 0: the initial edge array. -/
theorem res3 : (V3 m ρ c main_v11 : EdgeArr) = edges0 m c := by
  show StableHlo.after hostOps0_2 (StableHlo.after hostOps0_1 (StableHlo.after hostOps0 (W0 m ρ c))) (Proc.devRef .tc main_v11) = _
  after_results_simp
  rfl
/-- The message operand of launch 0. -/
theorem msg3 : (V3 m ρ c main_v30 : EdgeArr) = edgeMsgs (srcWords (in4 m c)) (dstWords (in4 m c)) (in5 m c) (edges0 m c) := by
  show StableHlo.after hostOps0_2 (StableHlo.after hostOps0_1 (StableHlo.after hostOps0 (W0 m ρ c))) (Proc.devRef .tc main_v30) = _
  after_results_simp
  rfl
/-- The weight operand of launch 0. -/
theorem wt3 : (V3 m ρ c main_v32 : WeightArr) = weight0 (in2 m c) := by
  show StableHlo.after hostOps0_2 (StableHlo.after hostOps0_1 (StableHlo.after hostOps0 (W0 m ρ c))) (Proc.devRef .tc main_v32) = _
  after_results_simp
  rfl
/-- The bias operand of launch 0: the bias vector as a row. -/
theorem bs3 : (V3 m ρ c main_v35 : BiasRow) = biasRow (bias0 (in3 m c)) := by
  show StableHlo.after hostOps0_2 (StableHlo.after hostOps0_1 (StableHlo.after hostOps0 (W0 m ρ c))) (Proc.devRef .tc main_v35) = _
  after_results_simp
  rfl

end Cert.MsgPass.Fold

end
-- ==== Proof.Payload.lean ====
/-
  The kernel body's stored value read at an entry of its `[3200, 512]` block: with `x0` the message block, `x2` the
  `[512, 512]` weight, `x3` the `[1, 512]` bias row and `x1` the residual block, entry `(r, f)` is
      (∑ₖ x0[r, k] · x2[f, k]  +  x3[0, f])  +  x1[r, f].
  The two casts to bf16 are the identity at the ideal instance, the matrix product into a zero accumulator is the plain
  sum over the contracted axis, and the bias row is broadcast along the rows. The three launches run the same body.
-/
import proofs.«140449_j9801115369512_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.TcCoe

namespace Cert.MsgPass

open Cert.KernelIdeal Cert.KernelIdeal.Facts₀ Cert.KernelIdeal.Gen

/-- Row `j 0` of the message block at column `k`. -/
abbrev blkMsgAt (j : S3200x512.Idx) (k : Fin 512) : S3200x512.Idx := fun a => match a with
  | ⟨0, _⟩ => ⟨(j 0).val, (j 0).isLt⟩
  | ⟨1, _⟩ => ⟨k.val, k.isLt⟩
/-- Row `j 1` of the weight at column `k`. -/
abbrev blkWeightAt (j : S3200x512.Idx) (k : Fin 512) : S512x512.Idx := fun a => match a with
  | ⟨0, _⟩ => ⟨(j 1).val, (j 1).isLt⟩
  | ⟨1, _⟩ => ⟨k.val, k.isLt⟩
/-- The bias row's entry for feature `j 1`. -/
abbrev blkBiasAt (j : S3200x512.Idx) : S1x512.Idx := fun a => match a with
  | ⟨0, _⟩ => ⟨0, Nat.one_pos⟩
  | ⟨1, _⟩ => ⟨(j 1).val, (j 1).isLt⟩

theorem lhs_blk_0 (j : S3200x512.Idx) (q : dot_S3200x512_S512x512_S3200x512_1_1_0_0_n_n.contr.Idx) :
    (dot_S3200x512_S512x512_S3200x512_1_1_0_0_n_n.lhsIdx j q 0).val = (j 0).val := by
  unfold DotDims.lhsIdx
  rw [dif_neg (show ¬(0 : Fin S3200x512.rank) ∈ dot_S3200x512_S512x512_S3200x512_1_1_0_0_n_n.lhsBatch by decide), dif_pos (show (0 : Fin S3200x512.rank) ∈ dot_S3200x512_S512x512_S3200x512_1_1_0_0_n_n.lhsNonContracting by decide)]
  rfl
theorem lhs_blk_1 (j : S3200x512.Idx) (q : dot_S3200x512_S512x512_S3200x512_1_1_0_0_n_n.contr.Idx) :
    (dot_S3200x512_S512x512_S3200x512_1_1_0_0_n_n.lhsIdx j q 1).val = (q ⟨0, by decide⟩).val :=
  dot_S3200x512_S512x512_S3200x512_1_1_0_0_n_n.lhsIdx_val_of_single rfl j q
theorem rhs_blk_0 (j : S3200x512.Idx) (q : dot_S3200x512_S512x512_S3200x512_1_1_0_0_n_n.contr.Idx) :
    (dot_S3200x512_S512x512_S3200x512_1_1_0_0_n_n.rhsIdx j q 0).val = (j 1).val := by
  unfold DotDims.rhsIdx
  rw [dif_neg (show ¬(0 : Fin S512x512.rank) ∈ dot_S3200x512_S512x512_S3200x512_1_1_0_0_n_n.rhsBatch by decide), dif_pos (show (0 : Fin S512x512.rank) ∈ dot_S3200x512_S512x512_S3200x512_1_1_0_0_n_n.rhsNonContracting by decide)]
  rfl
theorem rhs_blk_1 (j : S3200x512.Idx) (q : dot_S3200x512_S512x512_S3200x512_1_1_0_0_n_n.contr.Idx) :
    (dot_S3200x512_S512x512_S3200x512_1_1_0_0_n_n.rhsIdx j q 1).val = (q ⟨0, by decide⟩).val :=
  dot_S3200x512_S512x512_S3200x512_1_1_0_0_n_n.rhsIdx_val_of_single rfl j q

/-- The block product into a zero accumulator, at an entry: the sum over the contracted axis. -/
theorem blkMatmul_apply (y0 : FVec Ideal S3200x512 .bf16) (y2 : FVec Ideal S512x512 .bf16) (j : S3200x512.Idx) :
    matmul (F := Ideal) dot_S3200x512_S512x512_S3200x512_1_1_0_0_n_n none y0 y2 (constant (F := Ideal) S3200x512 .f32 0x00000000#32) j
      = ∑ k : Fin 512, y0 (blkMsgAt j k) * y2 (blkWeightAt j k) := by
  show FloatOps.matmul (F := Ideal) dot_S3200x512_S512x512_S3200x512_1_1_0_0_n_n none y0 y2 (constant (F := Ideal) S3200x512 .f32 0x00000000#32) j = _
  rw [Ideal.matmul_constant_zero_apply, ← Equiv.sum_comp (ValueIdx.contrEquiv1 dot_S3200x512_S512x512_S3200x512_1_1_0_0_n_n 512 rfl rfl).symm]
  refine Finset.sum_congr rfl fun k _ => ?_
  have hk := ValueIdx.contrEquiv1_symm_val dot_S3200x512_S512x512_S3200x512_1_1_0_0_n_n 512 rfl rfl k
  have el : dot_S3200x512_S512x512_S3200x512_1_1_0_0_n_n.lhsIdx j ((ValueIdx.contrEquiv1 dot_S3200x512_S512x512_S3200x512_1_1_0_0_n_n 512 rfl rfl).symm k) = blkMsgAt j k := funext fun a => Fin.ext (by
    match a with
    | ⟨0, _⟩ => exact lhs_blk_0 _ _
    | ⟨1, _⟩ => exact (lhs_blk_1 _ _).trans hk)
  have er : dot_S3200x512_S512x512_S3200x512_1_1_0_0_n_n.rhsIdx j ((ValueIdx.contrEquiv1 dot_S3200x512_S512x512_S3200x512_1_1_0_0_n_n 512 rfl rfl).symm k) = blkWeightAt j k := funext fun a => Fin.ext (by
    match a with
    | ⟨0, _⟩ => exact rhs_blk_0 _ _
    | ⟨1, _⟩ => exact (rhs_blk_1 _ _).trans hk)
  rw [el, er]

/-- THE BODY'S VALUE AT AN ENTRY (launch 0's body). -/
theorem pay0_apply (x0 x1 : Vec Ideal S3200x512 .f32) (x2 : Vec Ideal S512x512 .f32) (x3 : Vec Ideal S1x512 .f32) (j : S3200x512.Idx) :
    k0_pay1 (F := Ideal) x0 x2 x3 x1 j
      = ((∑ k : Fin 512, x0 (blkMsgAt j k) * x2 (blkWeightAt j k)) + x3 (blkBiasAt j)) + x1 j := by
  unfold k0_pay1
  simp only [shapeCast_self]
  show (matmul (F := Ideal) dot_S3200x512_S512x512_S3200x512_1_1_0_0_n_n none (truncf (F := Ideal) (φ := .f32) .bf16 x0 Facts₀.bitsLt_bf16_f32) (truncf (F := Ideal) (φ := .f32) .bf16 x2 Facts₀.bitsLt_bf16_f32) (constant (F := Ideal) S3200x512 .f32 0x00000000#32) j
      + broadcastTo S3200x512 x3 Facts₀.broadcasts_S1x512_S3200x512 j) + x1 j = _
  rw [blkMatmul_apply, broadcastTo_apply x3 Facts₀.broadcasts_S1x512_S3200x512 j (blkBiasAt j) (fun a => match a with
    | ⟨0, _⟩ => by show 0 = if (1 : Nat) = 1 then 0 else (j 0).val; rw [if_pos rfl]
    | ⟨1, _⟩ => by show (j 1).val = if (512 : Nat) = 1 then 0 else (j 1).val; rw [if_neg (by decide)])]
  rfl

/-- Launches 1 and 2 run the same body. -/
theorem pay1_apply (x0 x1 : Vec Ideal S3200x512 .f32) (x2 : Vec Ideal S512x512 .f32) (x3 : Vec Ideal S1x512 .f32) (j : S3200x512.Idx) :
    k1_pay1 (F := Ideal) x0 x2 x3 x1 j
      = ((∑ k : Fin 512, x0 (blkMsgAt j k) * x2 (blkWeightAt j k)) + x3 (blkBiasAt j)) + x1 j :=
  pay0_apply x0 x1 x2 x3 j
theorem pay2_apply (x0 x1 : Vec Ideal S3200x512 .f32) (x2 : Vec Ideal S512x512 .f32) (x3 : Vec Ideal S1x512 .f32) (j : S3200x512.Idx) :
    k2_pay1 (F := Ideal) x0 x2 x3 x1 j
      = ((∑ k : Fin 512, x0 (blkMsgAt j k) * x2 (blkWeightAt j k)) + x3 (blkBiasAt j)) + x1 j :=
  pay0_apply x0 x1 x2 x3 j

end Cert.MsgPass

end
-- ==== Proof.Region0.lean ====
/-
  Launch 0 of the linear step, read as a value: whatever the buffers hold when the region is entered (`V`), the
  output array after the region is `linResK` of the message array, the residual array, the weight and the bias row
  as entered.

  The grid has 50 points. At point `t` the message, residual and output windows hold rows `3200·t … 3200·t + 3199` of
  their arrays (all 512 columns); the weight and bias windows hold their whole arrays at every point. So entry
  `(r, f)` of the block point `t` writes back is entry `(3200·t + r, f)` of `linResK`, the 50 blocks tile the
  `[160000, 512]` output, and the array ends at `linResK`.
-/
import proofs.«140449_j9801115369512_1_alg».proof.Proof.Gen.KernelIdeal.Frame
import proofs.«140449_j9801115369512_1_alg».proof.Proof.Payload
import proofs.«140449_j9801115369512_1_alg».proof.Proof.Layer
import Idealize.ShloMosaic.Lib.Pipeline.Value

set_option maxRecDepth 16384

noncomputable section

open Idealize.ShloMosaic Idealize.ShloMosaic.TcCoe Idealize.SL.Sem
open Idealize.ShloMosaic.Pipeline (Dat)

namespace Cert.MsgPass.Region0

open Cert.KernelIdeal Cert.KernelIdeal.Gen Cert.MsgPass

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows follow the point, the weight and bias windows stay at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The message window's block at point `t`: rows `3200·t + r` of the message array. -/
theorem msgBlk_apply (c : Dev nD) (t : Fin cfg0.N) (y : S3200x512.Idx) (i : S160000x512.Idx)
    (h0 : (i 0).val = t.val * 3200 + (y 0).val) (h1 : (i 1).val = (y 1).val) :
    (iblk0 V c 0 t : Vec Ideal S3200x512 .f32) y = (V c main_v30 : EdgeArr) i := by
  obtain ⟨e0, e1, -⟩ := idx_facts t
  unfold iblk0
  rw [View.read_apply]
  show V c main_v30 _ = V c main_v30 i
  refine congrArg (V c main_v30) (funext fun a => Fin.ext ?_)
  match a with
  | ⟨0, _⟩ => show win0_0.index t (0 : Fin 2) * 3200 + 1 * (y 0).val = (i 0).val; rw [e0, h0]; omega
  | ⟨1, _⟩ => show win0_0.index t (1 : Fin 2) * 512 + 1 * (y 1).val = (i 1).val; rw [e1, h1]; omega

/-- The residual window's block at point `t`: the same rows of the residual array. -/
theorem resBlk_apply (c : Dev nD) (t : Fin cfg0.N) (y : S3200x512.Idx) (i : S160000x512.Idx)
    (h0 : (i 0).val = t.val * 3200 + (y 0).val) (h1 : (i 1).val = (y 1).val) :
    (iblk0 V c 1 t : Vec Ideal S3200x512 .f32) y = (V c main_v11 : EdgeArr) i := by
  obtain ⟨-, -, e0, e1, -⟩ := idx_facts t
  unfold iblk0
  rw [View.read_apply]
  show V c main_v11 _ = V c main_v11 i
  refine congrArg (V c main_v11) (funext fun a => Fin.ext ?_)
  match a with
  | ⟨0, _⟩ => show win0_1.index t (0 : Fin 2) * 3200 + 1 * (y 0).val = (i 0).val; rw [e0, h0]; omega
  | ⟨1, _⟩ => show win0_1.index t (1 : Fin 2) * 512 + 1 * (y 1).val = (i 1).val; rw [e1, h1]; omega

/-- The weight window's block at every point: the whole weight. -/
theorem weightBlk_apply (c : Dev nD) (t : Fin cfg0.N) (y z : S512x512.Idx)
    (h0 : (z 0).val = (y 0).val) (h1 : (z 1).val = (y 1).val) :
    (iblk0 V c 2 t : Vec Ideal S512x512 .f32) y = (V c main_v32 : WeightArr) z := by
  obtain ⟨-, -, -, -, e0, e1, -⟩ := idx_facts t
  unfold iblk0
  rw [View.read_apply]
  show V c main_v32 _ = V c main_v32 z
  refine congrArg (V c main_v32) (funext fun a => Fin.ext ?_)
  match a with
  | ⟨0, _⟩ => show win0_2.index t (0 : Fin 2) * 512 + 1 * (y 0).val = (z 0).val; rw [e0, h0]; omega
  | ⟨1, _⟩ => show win0_2.index t (1 : Fin 2) * 512 + 1 * (y 1).val = (z 1).val; rw [e1, h1]; omega

/-- The bias window's block at every point: the whole bias row. -/
theorem biasBlk_apply (c : Dev nD) (t : Fin cfg0.N) (y z : S1x512.Idx)
    (h0 : (z 0).val = (y 0).val) (h1 : (z 1).val = (y 1).val) :
    (iblk0 V c 3 t : Vec Ideal S1x512 .f32) y = (V c main_v35 : BiasRow) z := by
  obtain ⟨-, -, -, -, -, -, e0, e1, -⟩ := idx_facts t
  unfold iblk0
  rw [View.read_apply]
  show V c main_v35 _ = V c main_v35 z
  refine congrArg (V c main_v35) (funext fun a => Fin.ext ?_)
  match a with
  | ⟨0, _⟩ => show win0_3.index t (0 : Fin 2) * 1 + 1 * (y 0).val = (z 0).val; rw [e0, h0]; omega
  | ⟨1, _⟩ => show win0_3.index t (1 : Fin 2) * 512 + 1 * (y 1).val = (z 1).val; rw [e1, h1]; omega

/-- Entry `(r, f)` of what the body leaves at point `t` is entry `(3200·t + r, f)` of `linResK` of the arrays. -/
theorem entry_eq (c : Dev nD) (t : Fin cfg0.N) (j : S3200x512.Idx) (i : S160000x512.Idx)
    (h0 : (i 0).val = t.val * 3200 + (j 0).val) (h1 : (i 1).val = (j 1).val) :
    k0_pay1 (F := Ideal) (iblk0 V c 0 t) (iblk0 V c 2 t) (iblk0 V c 3 t) (iblk0 V c 1 t) j
      = linResK (V c main_v30) (V c main_v11) (V c main_v32) (V c main_v35) i := by
  refine (pay0_apply (iblk0 V c 0 t) (iblk0 V c 1 t) (iblk0 V c 2 t) (iblk0 V c 3 t) j).trans ?_
  unfold linResK
  rw [resBlk_apply V c t j i h0 h1, biasBlk_apply V c t (blkBiasAt j) (biasAt i) rfl h1]
  refine congrArg (fun s => (s + (V c main_v35 : BiasRow) (biasAt i)) + (V c main_v11 : EdgeArr) i) ?_
  refine Finset.sum_congr rfl fun k _ => ?_
  rw [msgBlk_apply V c t (blkMsgAt j k) (msgAt i k) h0 rfl, weightBlk_apply V c t (blkWeightAt j k) (weightAt i k) h1 rfl]

/-- WHAT POINT `t` WRITES BACK is block `t` of `linResK` of the arrays as the region finds them. -/
theorem flushed_eq (c : Dev nD) (t : Fin cfg0.N) :
    (dat0 V c).flushed 4 t
      = ((cfg0.win 4).blk t).view.read (Elt Ideal) (linResK (V c main_v30) (V c main_v11) (V c main_v32) (V c main_v35)) := by
  show (cfg0.win 4).cut (grid0.coords t) ((dat0 V c).after 4 t) = _
  rw [after0_4]
  unfold out0_4
  rw [View.canon_unit_zero hz]
  simp only [View.ld_unit_zero (S := S3200x512) hz, View.ld_unit_zero (S := S512x512) hz, View.ld_unit_zero (S := S1x512) hz]
  obtain ⟨-, -, -, -, -, -, -, -, e0, e1⟩ := idx_facts t
  funext j
  refine (entry_eq V c t j (((cfg0.win 4).blk t).view.emb j) ?_ ?_)
  · show win0_4.index t (0 : Fin 2) * 3200 + 1 * (j 0).val = t.val * 3200 + (j 0).val; rw [e0]; omega
  · show win0_4.index t (1 : Fin 2) * 512 + 1 * (j 1).val = (j 1).val; rw [e1]; omega

/-- An index of the output is in point `t`'s block iff each coordinate is in the block's range on its axis. -/
theorem mem_blk (t : Fin cfg0.N) (i : S160000x512.Idx) :
    i ∈ ((cfg0.win 4).blk t).view.set ↔ ∀ a : Fin 2, win0_4.index t a * S3200x512.size a ≤ (i a).val ∧ (i a).val < win0_4.index t a * S3200x512.size a + S3200x512.size a := by
  show i ∈ ((View.whole main_v36).slice (win0_4.rect t)).set ↔ _
  rw [View.set_slice_whole, Rect.mem_set_unit]
  exact Iff.rfl

/-- The blocks tile the output: row `r` is in the block of point `r / 3200`. -/
theorem cover (i : S160000x512.Idx) : ∃ t : Fin cfg0.N, (cfg0.win 4).flush t = true ∧ i ∈ ((cfg0.win 4).blk t).view.set := by
  have hi0 : (i 0).val < 160000 := (i 0).isLt
  have hi1 : (i 1).val < 512 := (i 1).isLt
  have hN : cfg0.N = 50 := N_0
  have ht : (i 0).val / 3200 < cfg0.N := by rw [hN]; omega
  obtain ⟨-, -, -, -, -, -, -, -, e0, e1⟩ := idx_facts ⟨(i 0).val / 3200, ht⟩
  refine ⟨⟨(i 0).val / 3200, ht⟩, flush0_4 _, ?_⟩
  rw [mem_blk]
  intro a
  match a with
  | ⟨0, _⟩ =>
    show win0_4.index ⟨(i 0).val / 3200, ht⟩ (0 : Fin 2) * 3200 ≤ (i 0).val ∧ (i 0).val < win0_4.index ⟨(i 0).val / 3200, ht⟩ (0 : Fin 2) * 3200 + 3200
    rw [e0]; show (i 0).val / 3200 * 3200 ≤ (i 0).val ∧ (i 0).val < (i 0).val / 3200 * 3200 + 3200; omega
  | ⟨1, _⟩ =>
    show win0_4.index ⟨(i 0).val / 3200, ht⟩ (1 : Fin 2) * 512 ≤ (i 1).val ∧ (i 1).val < win0_4.index ⟨(i 0).val / 3200, ht⟩ (1 : Fin 2) * 512 + 512
    rw [e1]; omega

/-- THE OUTPUT ARRAY after the region: `linResK` of the arrays as the region finds them. -/
theorem arr_eq (c : Dev nD) :
    (dat0 V c).arrAt 4 cfg0.N = linResK (V c main_v30) (V c main_v11) (V c main_v32) (V c main_v35) :=
  (dat0 V c).arrAt_eq_of_cover 4 _ (fun t _ => flushed_eq V c t) cover

end Cert.MsgPass.Region0

end
-- ==== Proof.FoldExit0.lean ====
/-
  Launch 0 of the kernel's program and what it leaves: its output array is layer 0 applied to the edge array it was
  entered with (the launch's value, at the four operand arrays read at its entry), and the buffers the later layers
  read again (the index words, the reverse index, the weight and bias stacks) are as they were at its entry.
-/
import proofs.«140449_j9801115369512_1_alg».proof.Proof.Fold0
import proofs.«140449_j9801115369512_1_alg».proof.Proof.Region0
import Idealize.ShloMosaic.Lib.StableHlo.Run

set_option maxRecDepth 16384

noncomputable section

open Idealize.ShloMosaic Idealize.ShloMosaic.TcCoe Idealize.SL.Sem Idealize.ShloMosaic.StableHlo

namespace Cert.MsgPass.Fold

open Cert.KernelIdeal Cert.KernelIdeal.Gen Cert.MsgPass

variable (m : (ℓ : Loc nD τ sig) → Buf (Elt Ideal) ℓ) (ρ : Dev nD → PrngReg) (c : Dev nD)

/-- Launch 0's output array: layer 0 applied to the edge array it was entered with. -/
theorem out4 : (V4 m ρ c main_v36 : EdgeArr) = edges1 m c := by
  show W4 m ρ c (Proc.devRef .tc (Pipeline.arrRef spec0 4)) = _
  rw [W4_arr, Region0.arr_eq (V3 m ρ) c, msg3, res3, wt3, bs3]
  rfl
theorem src4 : (V4 m ρ c main_v1 : IdxArr) = srcWords (in4 m c) := by
  show W4 m ρ c (Proc.devRef .tc main_v1) = _
  rw [W4_of_ne m ρ c main_v1 (by decide)]; exact src3 m ρ c
theorem dst4 : (V4 m ρ c main_v3 : IdxArr) = dstWords (in4 m c) := by
  show W4 m ρ c (Proc.devRef .tc main_v3) = _
  rw [W4_of_ne m ρ c main_v3 (by decide)]; exact dst3 m ρ c
theorem rev4 : (V4 m ρ c main_arg5 : IdxArr) = in5 m c := by
  show W4 m ρ c (Proc.devRef .tc main_arg5) = _
  rw [W4_of_ne m ρ c main_arg5 (by decide)]; exact rev3 m ρ c
theorem wts4 : (V4 m ρ c main_arg2 : WeightStack) = in2 m c := by
  show W4 m ρ c (Proc.devRef .tc main_arg2) = _
  rw [W4_of_ne m ρ c main_arg2 (by decide)]; exact wts3 m ρ c
theorem bss4 : (V4 m ρ c main_arg3 : BiasStack) = in3 m c := by
  show W4 m ρ c (Proc.devRef .tc main_arg3) = _
  rw [W4_of_ne m ρ c main_arg3 (by decide)]; exact bss3 m ρ c

end Cert.MsgPass.Fold

end
-- ==== Proof.FoldHost1.lean ====
/-
  From launch 0's exit to launch 1's entry: the host operations between the two launches (relu of launch 0's output, its
  segment sum, the two row gathers and their difference, the layer's weight and bias slices) read at launch 1's four
  operand buffers, over the contents launch 0 left; the buffers the later layers read again are untouched.
-/
import proofs.«140449_j9801115369512_1_alg».proof.Proof.FoldExit0
import Idealize.ShloMosaic.Lib.StableHlo.Run

set_option maxRecDepth 16384

noncomputable section

open Idealize.ShloMosaic Idealize.ShloMosaic.TcCoe Idealize.SL.Sem Idealize.ShloMosaic.StableHlo

namespace Cert.MsgPass.Fold

open Cert.KernelIdeal Cert.KernelIdeal.Gen Cert.MsgPass

variable (m : (ℓ : Loc nD τ sig) → Buf (Elt Ideal) ℓ) (ρ : Dev nD → PrngReg) (c : Dev nD)

theorem src6 : (V6 m ρ c main_v1 : IdxArr) = srcWords (in4 m c) := by
  show StableHlo.after hostOps1_1 (StableHlo.after hostOps1 (W4 m ρ c)) (Proc.devRef .tc main_v1) = _
  after_results_simp
  exact src4 m ρ c
theorem dst6 : (V6 m ρ c main_v3 : IdxArr) = dstWords (in4 m c) := by
  show StableHlo.after hostOps1_1 (StableHlo.after hostOps1 (W4 m ρ c)) (Proc.devRef .tc main_v3) = _
  after_results_simp
  exact dst4 m ρ c
theorem rev6 : (V6 m ρ c main_arg5 : IdxArr) = in5 m c := by
  show StableHlo.after hostOps1_1 (StableHlo.after hostOps1 (W4 m ρ c)) (Proc.devRef .tc main_arg5) = _
  after_results_simp
  exact rev4 m ρ c
theorem wts6 : (V6 m ρ c main_arg2 : WeightStack) = in2 m c := by
  show StableHlo.after hostOps1_1 (StableHlo.after hostOps1 (W4 m ρ c)) (Proc.devRef .tc main_arg2) = _
  after_results_simp
  exact wts4 m ρ c
theorem bss6 : (V6 m ρ c main_arg3 : BiasStack) = in3 m c := by
  show StableHlo.after hostOps1_1 (StableHlo.after hostOps1 (W4 m ρ c)) (Proc.devRef .tc main_arg3) = _
  after_results_simp
  exact bss4 m ρ c
/-- The residual operand of launch 1: launch 0's output. -/
theorem res6 : (V6 m ρ c main_v36 : EdgeArr) = edges1 m c := by
  show StableHlo.after hostOps1_1 (StableHlo.after hostOps1 (W4 m ρ c)) (Proc.devRef .tc main_v36) = _
  after_results_simp
  exact out4 m ρ c
/-- The message operand of launch 1. -/
theorem msg6 : (V6 m ρ c main_v55 : EdgeArr) = edgeMsgs (srcWords (in4 m c)) (dstWords (in4 m c)) (in5 m c) (edges1 m c) := by
  have h : (V6 m ρ c main_v55 : EdgeArr)
      = edgeMsgs (V4 m ρ c main_v1) (V4 m ρ c main_v3) (V4 m ρ c main_arg5) (V4 m ρ c main_v36) := by
    show StableHlo.after hostOps1_1 (StableHlo.after hostOps1 (W4 m ρ c)) (Proc.devRef .tc main_v55) = _
    after_results_simp
    rfl
  rw [h, src4, dst4, rev4, out4]
/-- The weight operand of launch 1. -/
theorem wt6 : (V6 m ρ c main_v57 : WeightArr) = weight1 (in2 m c) := by
  have h : (V6 m ρ c main_v57 : WeightArr) = weight1 (V4 m ρ c main_arg2) := by
    show StableHlo.after hostOps1_1 (StableHlo.after hostOps1 (W4 m ρ c)) (Proc.devRef .tc main_v57) = _
    after_results_simp
    rfl
  rw [h, wts4]
/-- The bias operand of launch 1: the bias vector as a row. -/
theorem bs6 : (V6 m ρ c main_v60 : BiasRow) = biasRow (bias1 (in3 m c)) := by
  have h : (V6 m ρ c main_v60 : BiasRow) = biasRow (bias1 (V4 m ρ c main_arg3)) := by
    show StableHlo.after hostOps1_1 (StableHlo.after hostOps1 (W4 m ρ c)) (Proc.devRef .tc main_v60) = _
    after_results_simp
    rfl
  rw [h, bss4]

end Cert.MsgPass.Fold

end
-- ==== Proof.Region1.lean ====
/-
  Launch 1 of the linear step, read as a value: whatever the buffers hold when the region is entered (`V`), the
  output array after the region is `linResK` of the message array, the residual array, the weight and the bias row
  as entered.

  The grid has 50 points. At point `t` the message, residual and output windows hold rows `3200·t … 3200·t + 3199` of
  their arrays (all 512 columns); the weight and bias windows hold their whole arrays at every point. So entry
  `(r, f)` of the block point `t` writes back is entry `(3200·t + r, f)` of `linResK`, the 50 blocks tile the
  `[160000, 512]` output, and the array ends at `linResK`.
-/
import proofs.«140449_j9801115369512_1_alg».proof.Proof.Gen.KernelIdeal.Frame
import proofs.«140449_j9801115369512_1_alg».proof.Proof.Payload
import proofs.«140449_j9801115369512_1_alg».proof.Proof.Layer
import Idealize.ShloMosaic.Lib.Pipeline.Value

set_option maxRecDepth 16384

noncomputable section

open Idealize.ShloMosaic Idealize.ShloMosaic.TcCoe Idealize.SL.Sem
open Idealize.ShloMosaic.Pipeline (Dat)

namespace Cert.MsgPass.Region1

open Cert.KernelIdeal Cert.KernelIdeal.Gen Cert.MsgPass

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows follow the point, the weight and bias windows stay at 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The message window's block at point `t`: rows `3200·t + r` of the message array. -/
theorem msgBlk_apply (c : Dev nD) (t : Fin cfg1.N) (y : S3200x512.Idx) (i : S160000x512.Idx)
    (h0 : (i 0).val = t.val * 3200 + (y 0).val) (h1 : (i 1).val = (y 1).val) :
    (iblk1 V c 0 t : Vec Ideal S3200x512 .f32) y = (V c main_v55 : EdgeArr) i := by
  obtain ⟨e0, e1, -⟩ := idx_facts t
  unfold iblk1
  rw [View.read_apply]
  show V c main_v55 _ = V c main_v55 i
  refine congrArg (V c main_v55) (funext fun a => Fin.ext ?_)
  match a with
  | ⟨0, _⟩ => show win1_0.index t (0 : Fin 2) * 3200 + 1 * (y 0).val = (i 0).val; rw [e0, h0]; omega
  | ⟨1, _⟩ => show win1_0.index t (1 : Fin 2) * 512 + 1 * (y 1).val = (i 1).val; rw [e1, h1]; omega

/-- The residual window's block at point `t`: the same rows of the residual array. -/
theorem resBlk_apply (c : Dev nD) (t : Fin cfg1.N) (y : S3200x512.Idx) (i : S160000x512.Idx)
    (h0 : (i 0).val = t.val * 3200 + (y 0).val) (h1 : (i 1).val = (y 1).val) :
    (iblk1 V c 1 t : Vec Ideal S3200x512 .f32) y = (V c main_v36 : EdgeArr) i := by
  obtain ⟨-, -, e0, e1, -⟩ := idx_facts t
  unfold iblk1
  rw [View.read_apply]
  show V c main_v36 _ = V c main_v36 i
  refine congrArg (V c main_v36) (funext fun a => Fin.ext ?_)
  match a with
  | ⟨0, _⟩ => show win1_1.index t (0 : Fin 2) * 3200 + 1 * (y 0).val = (i 0).val; rw [e0, h0]; omega
  | ⟨1, _⟩ => show win1_1.index t (1 : Fin 2) * 512 + 1 * (y 1).val = (i 1).val; rw [e1, h1]; omega

/-- The weight window's block at every point: the whole weight. -/
theorem weightBlk_apply (c : Dev nD) (t : Fin cfg1.N) (y z : S512x512.Idx)
    (h0 : (z 0).val = (y 0).val) (h1 : (z 1).val = (y 1).val) :
    (iblk1 V c 2 t : Vec Ideal S512x512 .f32) y = (V c main_v57 : WeightArr) z := by
  obtain ⟨-, -, -, -, e0, e1, -⟩ := idx_facts t
  unfold iblk1
  rw [View.read_apply]
  show V c main_v57 _ = V c main_v57 z
  refine congrArg (V c main_v57) (funext fun a => Fin.ext ?_)
  match a with
  | ⟨0, _⟩ => show win1_2.index t (0 : Fin 2) * 512 + 1 * (y 0).val = (z 0).val; rw [e0, h0]; omega
  | ⟨1, _⟩ => show win1_2.index t (1 : Fin 2) * 512 + 1 * (y 1).val = (z 1).val; rw [e1, h1]; omega

/-- The bias window's block at every point: the whole bias row. -/
theorem biasBlk_apply (c : Dev nD) (t : Fin cfg1.N) (y z : S1x512.Idx)
    (h0 : (z 0).val = (y 0).val) (h1 : (z 1).val = (y 1).val) :
    (iblk1 V c 3 t : Vec Ideal S1x512 .f32) y = (V c main_v60 : BiasRow) z := by
  obtain ⟨-, -, -, -, -, -, e0, e1, -⟩ := idx_facts t
  unfold iblk1
  rw [View.read_apply]
  show V c main_v60 _ = V c main_v60 z
  refine congrArg (V c main_v60) (funext fun a => Fin.ext ?_)
  match a with
  | ⟨0, _⟩ => show win1_3.index t (0 : Fin 2) * 1 + 1 * (y 0).val = (z 0).val; rw [e0, h0]; omega
  | ⟨1, _⟩ => show win1_3.index t (1 : Fin 2) * 512 + 1 * (y 1).val = (z 1).val; rw [e1, h1]; omega

/-- Entry `(r, f)` of what the body leaves at point `t` is entry `(3200·t + r, f)` of `linResK` of the arrays. -/
theorem entry_eq (c : Dev nD) (t : Fin cfg1.N) (j : S3200x512.Idx) (i : S160000x512.Idx)
    (h0 : (i 0).val = t.val * 3200 + (j 0).val) (h1 : (i 1).val = (j 1).val) :
    k1_pay1 (F := Ideal) (iblk1 V c 0 t) (iblk1 V c 2 t) (iblk1 V c 3 t) (iblk1 V c 1 t) j
      = linResK (V c main_v55) (V c main_v36) (V c main_v57) (V c main_v60) i := by
  refine (pay1_apply (iblk1 V c 0 t) (iblk1 V c 1 t) (iblk1 V c 2 t) (iblk1 V c 3 t) j).trans ?_
  unfold linResK
  rw [resBlk_apply V c t j i h0 h1, biasBlk_apply V c t (blkBiasAt j) (biasAt i) rfl h1]
  refine congrArg (fun s => (s + (V c main_v60 : BiasRow) (biasAt i)) + (V c main_v36 : EdgeArr) i) ?_
  refine Finset.sum_congr rfl fun k _ => ?_
  rw [msgBlk_apply V c t (blkMsgAt j k) (msgAt i k) h0 rfl, weightBlk_apply V c t (blkWeightAt j k) (weightAt i k) h1 rfl]

/-- WHAT POINT `t` WRITES BACK is block `t` of `linResK` of the arrays as the region finds them. -/
theorem flushed_eq (c : Dev nD) (t : Fin cfg1.N) :
    (dat1 V c).flushed 4 t
      = ((cfg1.win 4).blk t).view.read (Elt Ideal) (linResK (V c main_v55) (V c main_v36) (V c main_v57) (V c main_v60)) := by
  show (cfg1.win 4).cut (grid1.coords t) ((dat1 V c).after 4 t) = _
  rw [after1_4]
  unfold out1_4
  rw [View.canon_unit_zero hz]
  simp only [View.ld_unit_zero (S := S3200x512) hz, View.ld_unit_zero (S := S512x512) hz, View.ld_unit_zero (S := S1x512) hz]
  obtain ⟨-, -, -, -, -, -, -, -, e0, e1⟩ := idx_facts t
  funext j
  refine (entry_eq V c t j (((cfg1.win 4).blk t).view.emb j) ?_ ?_)
  · show win1_4.index t (0 : Fin 2) * 3200 + 1 * (j 0).val = t.val * 3200 + (j 0).val; rw [e0]; omega
  · show win1_4.index t (1 : Fin 2) * 512 + 1 * (j 1).val = (j 1).val; rw [e1]; omega

/-- An index of the output is in point `t`'s block iff each coordinate is in the block's range on its axis. -/
theorem mem_blk (t : Fin cfg1.N) (i : S160000x512.Idx) :
    i ∈ ((cfg1.win 4).blk t).view.set ↔ ∀ a : Fin 2, win1_4.index t a * S3200x512.size a ≤ (i a).val ∧ (i a).val < win1_4.index t a * S3200x512.size a + S3200x512.size a := by
  show i ∈ ((View.whole main_v61).slice (win1_4.rect t)).set ↔ _
  rw [View.set_slice_whole, Rect.mem_set_unit]
  exact Iff.rfl

/-- The blocks tile the output: row `r` is in the block of point `r / 3200`. -/
theorem cover (i : S160000x512.Idx) : ∃ t : Fin cfg1.N, (cfg1.win 4).flush t = true ∧ i ∈ ((cfg1.win 4).blk t).view.set := by
  have hi0 : (i 0).val < 160000 := (i 0).isLt
  have hi1 : (i 1).val < 512 := (i 1).isLt
  have hN : cfg1.N = 50 := N_1
  have ht : (i 0).val / 3200 < cfg1.N := by rw [hN]; omega
  obtain ⟨-, -, -, -, -, -, -, -, e0, e1⟩ := idx_facts ⟨(i 0).val / 3200, ht⟩
  refine ⟨⟨(i 0).val / 3200, ht⟩, flush1_4 _, ?_⟩
  rw [mem_blk]
  intro a
  match a with
  | ⟨0, _⟩ =>
    show win1_4.index ⟨(i 0).val / 3200, ht⟩ (0 : Fin 2) * 3200 ≤ (i 0).val ∧ (i 0).val < win1_4.index ⟨(i 0).val / 3200, ht⟩ (0 : Fin 2) * 3200 + 3200
    rw [e0]; show (i 0).val / 3200 * 3200 ≤ (i 0).val ∧ (i 0).val < (i 0).val / 3200 * 3200 + 3200; omega
  | ⟨1, _⟩ =>
    show win1_4.index ⟨(i 0).val / 3200, ht⟩ (1 : Fin 2) * 512 ≤ (i 1).val ∧ (i 1).val < win1_4.index ⟨(i 0).val / 3200, ht⟩ (1 : Fin 2) * 512 + 512
    rw [e1]; omega

/-- THE OUTPUT ARRAY after the region: `linResK` of the arrays as the region finds them. -/
theorem arr_eq (c : Dev nD) :
    (dat1 V c).arrAt 4 cfg1.N = linResK (V c main_v55) (V c main_v36) (V c main_v57) (V c main_v60) :=
  (dat1 V c).arrAt_eq_of_cover 4 _ (fun t _ => flushed_eq V c t) cover

end Cert.MsgPass.Region1

end
-- ==== Proof.FoldExit1.lean ====
/-
  Launch 1 of the kernel's program and what it leaves: its output array is layer 1 applied to the edge array it was
  entered with (the launch's value, at the four operand arrays read at its entry), and the buffers the later layers
  read again (the index words, the reverse index, the weight and bias stacks) are as they were at its entry.
-/
import proofs.«140449_j9801115369512_1_alg».proof.Proof.FoldHost1
import proofs.«140449_j9801115369512_1_alg».proof.Proof.Region1
import Idealize.ShloMosaic.Lib.StableHlo.Run

set_option maxRecDepth 16384

noncomputable section

open Idealize.ShloMosaic Idealize.ShloMosaic.TcCoe Idealize.SL.Sem Idealize.ShloMosaic.StableHlo

namespace Cert.MsgPass.Fold

open Cert.KernelIdeal Cert.KernelIdeal.Gen Cert.MsgPass

variable (m : (ℓ : Loc nD τ sig) → Buf (Elt Ideal) ℓ) (ρ : Dev nD → PrngReg) (c : Dev nD)

/-- Launch 1's output array: layer 1 applied to the edge array it was entered with. -/
theorem out7 : (V7 m ρ c main_v61 : EdgeArr) = edges2 m c := by
  show W7 m ρ c (Proc.devRef .tc (Pipeline.arrRef spec1 4)) = _
  rw [W7_arr, Region1.arr_eq (V6 m ρ) c, msg6, res6, wt6, bs6]
  rfl
theorem src7 : (V7 m ρ c main_v1 : IdxArr) = srcWords (in4 m c) := by
  show W7 m ρ c (Proc.devRef .tc main_v1) = _
  rw [W7_of_ne m ρ c main_v1 (by decide)]; exact src6 m ρ c
theorem dst7 : (V7 m ρ c main_v3 : IdxArr) = dstWords (in4 m c) := by
  show W7 m ρ c (Proc.devRef .tc main_v3) = _
  rw [W7_of_ne m ρ c main_v3 (by decide)]; exact dst6 m ρ c
theorem rev7 : (V7 m ρ c main_arg5 : IdxArr) = in5 m c := by
  show W7 m ρ c (Proc.devRef .tc main_arg5) = _
  rw [W7_of_ne m ρ c main_arg5 (by decide)]; exact rev6 m ρ c
theorem wts7 : (V7 m ρ c main_arg2 : WeightStack) = in2 m c := by
  show W7 m ρ c (Proc.devRef .tc main_arg2) = _
  rw [W7_of_ne m ρ c main_arg2 (by decide)]; exact wts6 m ρ c
theorem bss7 : (V7 m ρ c main_arg3 : BiasStack) = in3 m c := by
  show W7 m ρ c (Proc.devRef .tc main_arg3) = _
  rw [W7_of_ne m ρ c main_arg3 (by decide)]; exact bss6 m ρ c

end Cert.MsgPass.Fold

end
-- ==== Proof.FoldHost2.lean ====
/-
  From launch 1's exit to launch 2's entry: the host operations between the two launches (relu of launch 1's output, its
  segment sum, the two row gathers and their difference, the layer's weight and bias slices) read at launch 2's four
  operand buffers, over the contents launch 1 left; the buffers the later layers read again are untouched.
-/
import proofs.«140449_j9801115369512_1_alg».proof.Proof.FoldExit1
import Idealize.ShloMosaic.Lib.StableHlo.Run

set_option maxRecDepth 16384

noncomputable section

open Idealize.ShloMosaic Idealize.ShloMosaic.TcCoe Idealize.SL.Sem Idealize.ShloMosaic.StableHlo

namespace Cert.MsgPass.Fold

open Cert.KernelIdeal Cert.KernelIdeal.Gen Cert.MsgPass

variable (m : (ℓ : Loc nD τ sig) → Buf (Elt Ideal) ℓ) (ρ : Dev nD → PrngReg) (c : Dev nD)

theorem src9 : (V9 m ρ c main_v1 : IdxArr) = srcWords (in4 m c) := by
  show StableHlo.after hostOps2_1 (StableHlo.after hostOps2 (W7 m ρ c)) (Proc.devRef .tc main_v1) = _
  after_results_simp
  exact src7 m ρ c
theorem dst9 : (V9 m ρ c main_v3 : IdxArr) = dstWords (in4 m c) := by
  show StableHlo.after hostOps2_1 (StableHlo.after hostOps2 (W7 m ρ c)) (Proc.devRef .tc main_v3) = _
  after_results_simp
  exact dst7 m ρ c
theorem rev9 : (V9 m ρ c main_arg5 : IdxArr) = in5 m c := by
  show StableHlo.after hostOps2_1 (StableHlo.after hostOps2 (W7 m ρ c)) (Proc.devRef .tc main_arg5) = _
  after_results_simp
  exact rev7 m ρ c
theorem wts9 : (V9 m ρ c main_arg2 : WeightStack) = in2 m c := by
  show StableHlo.after hostOps2_1 (StableHlo.after hostOps2 (W7 m ρ c)) (Proc.devRef .tc main_arg2) = _
  after_results_simp
  exact wts7 m ρ c
theorem bss9 : (V9 m ρ c main_arg3 : BiasStack) = in3 m c := by
  show StableHlo.after hostOps2_1 (StableHlo.after hostOps2 (W7 m ρ c)) (Proc.devRef .tc main_arg3) = _
  after_results_simp
  exact bss7 m ρ c
/-- The residual operand of launch 2: launch 1's output. -/
theorem res9 : (V9 m ρ c main_v61 : EdgeArr) = edges2 m c := by
  show StableHlo.after hostOps2_1 (StableHlo.after hostOps2 (W7 m ρ c)) (Proc.devRef .tc main_v61) = _
  after_results_simp
  exact out7 m ρ c
/-- The message operand of launch 2. -/
theorem msg9 : (V9 m ρ c main_v80 : EdgeArr) = edgeMsgs (srcWords (in4 m c)) (dstWords (in4 m c)) (in5 m c) (edges2 m c) := by
  have h : (V9 m ρ c main_v80 : EdgeArr)
      = edgeMsgs (V7 m ρ c main_v1) (V7 m ρ c main_v3) (V7 m ρ c main_arg5) (V7 m ρ c main_v61) := by
    show StableHlo.after hostOps2_1 (StableHlo.after hostOps2 (W7 m ρ c)) (Proc.devRef .tc main_v80) = _
    after_results_simp
    rfl
  rw [h, src7, dst7, rev7, out7]
/-- The weight operand of launch 2. -/
theorem wt9 : (V9 m ρ c main_v82 : WeightArr) = weight2 (in2 m c) := by
  have h : (V9 m ρ c main_v82 : WeightArr) = weight2 (V7 m ρ c main_arg2) := by
    show StableHlo.after hostOps2_1 (StableHlo.after hostOps2 (W7 m ρ c)) (Proc.devRef .tc main_v82) = _
    after_results_simp
    rfl
  rw [h, wts7]
/-- The bias operand of launch 2: the bias vector as a row. -/
theorem bs9 : (V9 m ρ c main_v85 : BiasRow) = biasRow (bias2 (in3 m c)) := by
  have h : (V9 m ρ c main_v85 : BiasRow) = biasRow (bias2 (V7 m ρ c main_arg3)) := by
    show StableHlo.after hostOps2_1 (StableHlo.after hostOps2 (W7 m ρ c)) (Proc.devRef .tc main_v85) = _
    after_results_simp
    rfl
  rw [h, bss7]

end Cert.MsgPass.Fold

end
-- ==== Proof.Region2.lean ====
/-
  Launch 2 of the linear step, read as a value: whatever the buffers hold when the region is entered (`V`), the
  output array after the region is `linResK` of the message array, the residual array, the weight and the bias row
  as entered.

  The grid has 50 points. At point `t` the message, residual and output windows hold rows `3200·t … 3200·t + 3199` of
  their arrays (all 512 columns); the weight and bias windows hold their whole arrays at every point. So entry
  `(r, f)` of the block point `t` writes back is entry `(3200·t + r, f)` of `linResK`, the 50 blocks tile the
  `[160000, 512]` output, and the array ends at `linResK`.
-/
import proofs.«140449_j9801115369512_1_alg».proof.Proof.Gen.KernelIdeal.Frame
import proofs.«140449_j9801115369512_1_alg».proof.Proof.Payload
import proofs.«140449_j9801115369512_1_alg».proof.Proof.Layer
import Idealize.ShloMosaic.Lib.Pipeline.Value

set_option maxRecDepth 16384

noncomputable section

open Idealize.ShloMosaic Idealize.ShloMosaic.TcCoe Idealize.SL.Sem
open Idealize.ShloMosaic.Pipeline (Dat)

namespace Cert.MsgPass.Region2

open Cert.KernelIdeal Cert.KernelIdeal.Gen Cert.MsgPass

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows follow the point, the weight and bias windows stay at 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The message window's block at point `t`: rows `3200·t + r` of the message array. -/
theorem msgBlk_apply (c : Dev nD) (t : Fin cfg2.N) (y : S3200x512.Idx) (i : S160000x512.Idx)
    (h0 : (i 0).val = t.val * 3200 + (y 0).val) (h1 : (i 1).val = (y 1).val) :
    (iblk2 V c 0 t : Vec Ideal S3200x512 .f32) y = (V c main_v80 : EdgeArr) i := by
  obtain ⟨e0, e1, -⟩ := idx_facts t
  unfold iblk2
  rw [View.read_apply]
  show V c main_v80 _ = V c main_v80 i
  refine congrArg (V c main_v80) (funext fun a => Fin.ext ?_)
  match a with
  | ⟨0, _⟩ => show win2_0.index t (0 : Fin 2) * 3200 + 1 * (y 0).val = (i 0).val; rw [e0, h0]; omega
  | ⟨1, _⟩ => show win2_0.index t (1 : Fin 2) * 512 + 1 * (y 1).val = (i 1).val; rw [e1, h1]; omega

/-- The residual window's block at point `t`: the same rows of the residual array. -/
theorem resBlk_apply (c : Dev nD) (t : Fin cfg2.N) (y : S3200x512.Idx) (i : S160000x512.Idx)
    (h0 : (i 0).val = t.val * 3200 + (y 0).val) (h1 : (i 1).val = (y 1).val) :
    (iblk2 V c 1 t : Vec Ideal S3200x512 .f32) y = (V c main_v61 : EdgeArr) i := by
  obtain ⟨-, -, e0, e1, -⟩ := idx_facts t
  unfold iblk2
  rw [View.read_apply]
  show V c main_v61 _ = V c main_v61 i
  refine congrArg (V c main_v61) (funext fun a => Fin.ext ?_)
  match a with
  | ⟨0, _⟩ => show win2_1.index t (0 : Fin 2) * 3200 + 1 * (y 0).val = (i 0).val; rw [e0, h0]; omega
  | ⟨1, _⟩ => show win2_1.index t (1 : Fin 2) * 512 + 1 * (y 1).val = (i 1).val; rw [e1, h1]; omega

/-- The weight window's block at every point: the whole weight. -/
theorem weightBlk_apply (c : Dev nD) (t : Fin cfg2.N) (y z : S512x512.Idx)
    (h0 : (z 0).val = (y 0).val) (h1 : (z 1).val = (y 1).val) :
    (iblk2 V c 2 t : Vec Ideal S512x512 .f32) y = (V c main_v82 : WeightArr) z := by
  obtain ⟨-, -, -, -, e0, e1, -⟩ := idx_facts t
  unfold iblk2
  rw [View.read_apply]
  show V c main_v82 _ = V c main_v82 z
  refine congrArg (V c main_v82) (funext fun a => Fin.ext ?_)
  match a with
  | ⟨0, _⟩ => show win2_2.index t (0 : Fin 2) * 512 + 1 * (y 0).val = (z 0).val; rw [e0, h0]; omega
  | ⟨1, _⟩ => show win2_2.index t (1 : Fin 2) * 512 + 1 * (y 1).val = (z 1).val; rw [e1, h1]; omega

/-- The bias window's block at every point: the whole bias row. -/
theorem biasBlk_apply (c : Dev nD) (t : Fin cfg2.N) (y z : S1x512.Idx)
    (h0 : (z 0).val = (y 0).val) (h1 : (z 1).val = (y 1).val) :
    (iblk2 V c 3 t : Vec Ideal S1x512 .f32) y = (V c main_v85 : BiasRow) z := by
  obtain ⟨-, -, -, -, -, -, e0, e1, -⟩ := idx_facts t
  unfold iblk2
  rw [View.read_apply]
  show V c main_v85 _ = V c main_v85 z
  refine congrArg (V c main_v85) (funext fun a => Fin.ext ?_)
  match a with
  | ⟨0, _⟩ => show win2_3.index t (0 : Fin 2) * 1 + 1 * (y 0).val = (z 0).val; rw [e0, h0]; omega
  | ⟨1, _⟩ => show win2_3.index t (1 : Fin 2) * 512 + 1 * (y 1).val = (z 1).val; rw [e1, h1]; omega

/-- Entry `(r, f)` of what the body leaves at point `t` is entry `(3200·t + r, f)` of `linResK` of the arrays. -/
theorem entry_eq (c : Dev nD) (t : Fin cfg2.N) (j : S3200x512.Idx) (i : S160000x512.Idx)
    (h0 : (i 0).val = t.val * 3200 + (j 0).val) (h1 : (i 1).val = (j 1).val) :
    k2_pay1 (F := Ideal) (iblk2 V c 0 t) (iblk2 V c 2 t) (iblk2 V c 3 t) (iblk2 V c 1 t) j
      = linResK (V c main_v80) (V c main_v61) (V c main_v82) (V c main_v85) i := by
  refine (pay2_apply (iblk2 V c 0 t) (iblk2 V c 1 t) (iblk2 V c 2 t) (iblk2 V c 3 t) j).trans ?_
  unfold linResK
  rw [resBlk_apply V c t j i h0 h1, biasBlk_apply V c t (blkBiasAt j) (biasAt i) rfl h1]
  refine congrArg (fun s => (s + (V c main_v85 : BiasRow) (biasAt i)) + (V c main_v61 : EdgeArr) i) ?_
  refine Finset.sum_congr rfl fun k _ => ?_
  rw [msgBlk_apply V c t (blkMsgAt j k) (msgAt i k) h0 rfl, weightBlk_apply V c t (blkWeightAt j k) (weightAt i k) h1 rfl]

/-- WHAT POINT `t` WRITES BACK is block `t` of `linResK` of the arrays as the region finds them. -/
theorem flushed_eq (c : Dev nD) (t : Fin cfg2.N) :
    (dat2 V c).flushed 4 t
      = ((cfg2.win 4).blk t).view.read (Elt Ideal) (linResK (V c main_v80) (V c main_v61) (V c main_v82) (V c main_v85)) := by
  show (cfg2.win 4).cut (grid2.coords t) ((dat2 V c).after 4 t) = _
  rw [after2_4]
  unfold out2_4
  rw [View.canon_unit_zero hz]
  simp only [View.ld_unit_zero (S := S3200x512) hz, View.ld_unit_zero (S := S512x512) hz, View.ld_unit_zero (S := S1x512) hz]
  obtain ⟨-, -, -, -, -, -, -, -, e0, e1⟩ := idx_facts t
  funext j
  refine (entry_eq V c t j (((cfg2.win 4).blk t).view.emb j) ?_ ?_)
  · show win2_4.index t (0 : Fin 2) * 3200 + 1 * (j 0).val = t.val * 3200 + (j 0).val; rw [e0]; omega
  · show win2_4.index t (1 : Fin 2) * 512 + 1 * (j 1).val = (j 1).val; rw [e1]; omega

/-- An index of the output is in point `t`'s block iff each coordinate is in the block's range on its axis. -/
theorem mem_blk (t : Fin cfg2.N) (i : S160000x512.Idx) :
    i ∈ ((cfg2.win 4).blk t).view.set ↔ ∀ a : Fin 2, win2_4.index t a * S3200x512.size a ≤ (i a).val ∧ (i a).val < win2_4.index t a * S3200x512.size a + S3200x512.size a := by
  show i ∈ ((View.whole main_v86).slice (win2_4.rect t)).set ↔ _
  rw [View.set_slice_whole, Rect.mem_set_unit]
  exact Iff.rfl

/-- The blocks tile the output: row `r` is in the block of point `r / 3200`. -/
theorem cover (i : S160000x512.Idx) : ∃ t : Fin cfg2.N, (cfg2.win 4).flush t = true ∧ i ∈ ((cfg2.win 4).blk t).view.set := by
  have hi0 : (i 0).val < 160000 := (i 0).isLt
  have hi1 : (i 1).val < 512 := (i 1).isLt
  have hN : cfg2.N = 50 := N_2
  have ht : (i 0).val / 3200 < cfg2.N := by rw [hN]; omega
  obtain ⟨-, -, -, -, -, -, -, -, e0, e1⟩ := idx_facts ⟨(i 0).val / 3200, ht⟩
  refine ⟨⟨(i 0).val / 3200, ht⟩, flush2_4 _, ?_⟩
  rw [mem_blk]
  intro a
  match a with
  | ⟨0, _⟩ =>
    show win2_4.index ⟨(i 0).val / 3200, ht⟩ (0 : Fin 2) * 3200 ≤ (i 0).val ∧ (i 0).val < win2_4.index ⟨(i 0).val / 3200, ht⟩ (0 : Fin 2) * 3200 + 3200
    rw [e0]; show (i 0).val / 3200 * 3200 ≤ (i 0).val ∧ (i 0).val < (i 0).val / 3200 * 3200 + 3200; omega
  | ⟨1, _⟩ =>
    show win2_4.index ⟨(i 0).val / 3200, ht⟩ (1 : Fin 2) * 512 ≤ (i 1).val ∧ (i 1).val < win2_4.index ⟨(i 0).val / 3200, ht⟩ (1 : Fin 2) * 512 + 512
    rw [e1]; omega

/-- THE OUTPUT ARRAY after the region: `linResK` of the arrays as the region finds them. -/
theorem arr_eq (c : Dev nD) :
    (dat2 V c).arrAt 4 cfg2.N = linResK (V c main_v80) (V c main_v61) (V c main_v82) (V c main_v85) :=
  (dat2 V c).arrAt_eq_of_cover 4 _ (fun t _ => flushed_eq V c t) cover

end Cert.MsgPass.Region2

end
-- ==== Proof.FoldExit2.lean ====
/-
  Launch 2 of the kernel's program and what it leaves: its output array is layer 2 applied to the edge array it was
  entered with (the launch's value, at the four operand arrays read at its entry), and the buffers the later layers
  read again (the index words, the reverse index, the weight and bias stacks) are as they were at its entry.
-/
import proofs.«140449_j9801115369512_1_alg».proof.Proof.FoldHost2
import proofs.«140449_j9801115369512_1_alg».proof.Proof.Region2
import Idealize.ShloMosaic.Lib.StableHlo.Run

set_option maxRecDepth 16384

noncomputable section

open Idealize.ShloMosaic Idealize.ShloMosaic.TcCoe Idealize.SL.Sem Idealize.ShloMosaic.StableHlo

namespace Cert.MsgPass.Fold

open Cert.KernelIdeal Cert.KernelIdeal.Gen Cert.MsgPass

variable (m : (ℓ : Loc nD τ sig) → Buf (Elt Ideal) ℓ) (ρ : Dev nD → PrngReg) (c : Dev nD)

/-- Launch 2's output array: layer 2 applied to the edge array it was entered with. -/
theorem out10 : (V10 m ρ c main_v86 : EdgeArr) = edges3 m c := by
  show W10 m ρ c (Proc.devRef .tc (Pipeline.arrRef spec2 4)) = _
  rw [W10_arr, Region2.arr_eq (V9 m ρ) c, msg9, res9, wt9, bs9]
  rfl
theorem src10 : (V10 m ρ c main_v1 : IdxArr) = srcWords (in4 m c) := by
  show W10 m ρ c (Proc.devRef .tc main_v1) = _
  rw [W10_of_ne m ρ c main_v1 (by decide)]; exact src9 m ρ c
theorem dst10 : (V10 m ρ c main_v3 : IdxArr) = dstWords (in4 m c) := by
  show W10 m ρ c (Proc.devRef .tc main_v3) = _
  rw [W10_of_ne m ρ c main_v3 (by decide)]; exact dst9 m ρ c
theorem rev10 : (V10 m ρ c main_arg5 : IdxArr) = in5 m c := by
  show W10 m ρ c (Proc.devRef .tc main_arg5) = _
  rw [W10_of_ne m ρ c main_arg5 (by decide)]; exact rev9 m ρ c
theorem wts10 : (V10 m ρ c main_arg2 : WeightStack) = in2 m c := by
  show W10 m ρ c (Proc.devRef .tc main_arg2) = _
  rw [W10_of_ne m ρ c main_arg2 (by decide)]; exact wts9 m ρ c
theorem bss10 : (V10 m ρ c main_arg3 : BiasStack) = in3 m c := by
  show W10 m ρ c (Proc.devRef .tc main_arg3) = _
  rw [W10_of_ne m ρ c main_arg3 (by decide)]; exact bss9 m ρ c

end Cert.MsgPass.Fold

end
-- ==== Proof.FoldResults.lean ====
/-
  The two results of the kernel's program, read at the last boundary of its run: the edge result is launch 2's output,
  which no later host operation writes — the network's edge array over the kernel's step —, and the node result is the
  segment sum of its rows over the destination index — the network's read-out.
-/
import proofs.«140449_j9801115369512_1_alg».proof.Proof.FoldExit2
import Idealize.ShloMosaic.Lib.StableHlo.Run

set_option maxRecDepth 16384

noncomputable section

open Idealize.ShloMosaic Idealize.ShloMosaic.TcCoe Idealize.SL.Sem Idealize.ShloMosaic.StableHlo

namespace Cert.MsgPass.Fold

open Cert.KernelIdeal Cert.KernelIdeal.Gen Cert.MsgPass

variable (m : (ℓ : Loc nD τ sig) → Buf (Elt Ideal) ℓ) (ρ : Dev nD → PrngReg) (c : Dev nD)

/-- THE EDGE RESULT: the network's edge array over the kernel's step. -/
theorem result_edges : (W11 m ρ c (Proc.devRef .tc main_v86) : EdgeArr)
    = edgesAfter linK (in0 m c) (in1 m c) (in2 m c) (in3 m c) (in4 m c) (in5 m c) := by
  show StableHlo.after hostOps3 (W10 m ρ c) (Proc.devRef .tc main_v86) = _
  after_results_simp
  exact (out10 m ρ c).trans (edges3_eq m c)

/-- THE NODE RESULT: its read-out. -/
theorem result_nodes : (W11 m ρ c (Proc.devRef .tc main_v89) : NodeArr)
    = nodesAfter linK (in0 m c) (in1 m c) (in2 m c) (in3 m c) (in4 m c) (in5 m c) := by
  have h : (W11 m ρ c (Proc.devRef .tc main_v89) : NodeArr) = readOut (V10 m ρ c main_v3) (V10 m ρ c main_v86) := by
    show StableHlo.after hostOps3 (W10 m ρ c) (Proc.devRef .tc main_v89) = _
    after_results_simp
    rfl
  rw [h, dst10, out10, edges3_eq]
  rfl

end Cert.MsgPass.Fold

end
-- ==== Proof.RefSide.lean ====
/-
  The reference read as the network: through its stages one operation at a time, the reference's edge result is the
  three layers over its own linear step `linResR`, and its node result the read-out of that. Every stage is the
  reference's printed operation applied to earlier stages, and the network's definitions apply the same operations in
  the same order, so each equation holds by unfolding definitions.
-/
import proofs.«140449_j9801115369512_1_alg».proof.Proof.Gen.ReferenceIdeal.Run
import proofs.«140449_j9801115369512_1_alg».proof.Proof.Gen.ReferenceIdeal.Read
import proofs.«140449_j9801115369512_1_alg».proof.Proof.Network

noncomputable section

open Idealize.ShloMosaic Idealize.ShloMosaic.TcCoe

namespace Cert.MsgPass

open Cert.ReferenceIdeal.Read

variable (x0 : NodeArr) (x1 : EdgeArr) (x2 : WeightStack) (x3 : BiasStack) (x4 : PairArr) (x5 : IdxArr)

/-- The initial edge array. -/
theorem ref_init : val_main_v11 (F := Ideal) x0 x1 x4 = initEdges x0 x1 (srcWords x4) := rfl

/-- Layer 0 on the initial edge array. -/
theorem ref_layer0 : val_main_v39 (F := Ideal) x0 x1 x2 x3 x4 x5
    = layer linResR (srcWords x4) (dstWords x4) x5 (weight0 x2) (bias0 x3) (val_main_v11 (F := Ideal) x0 x1 x4) := rfl

/-- Layer 1 on layer 0's result. -/
theorem ref_layer1 : val_main_v67 (F := Ideal) x0 x1 x2 x3 x4 x5
    = layer linResR (srcWords x4) (dstWords x4) x5 (weight1 x2) (bias1 x3) (val_main_v39 (F := Ideal) x0 x1 x2 x3 x4 x5) := rfl

/-- Layer 2 on layer 1's result. -/
theorem ref_layer2 : val_main_v95 (F := Ideal) x0 x1 x2 x3 x4 x5
    = layer linResR (srcWords x4) (dstWords x4) x5 (weight2 x2) (bias2 x3) (val_main_v67 (F := Ideal) x0 x1 x2 x3 x4 x5) := rfl

/-- THE REFERENCE'S EDGE RESULT is the network's. -/
theorem ref_edges : val_main_v95 (F := Ideal) x0 x1 x2 x3 x4 x5 = edgesAfter linResR x0 x1 x2 x3 x4 x5 := by
  rw [ref_layer2, ref_layer1, ref_layer0, ref_init]
  rfl

/-- THE REFERENCE'S NODE RESULT is the network's read-out. -/
theorem ref_nodes : val_main_v98 (F := Ideal) x0 x1 x2 x3 x4 x5 = nodesAfter linResR x0 x1 x2 x3 x4 x5 := by
  unfold val_main_v98
  rw [ref_edges]
  rfl

end Cert.MsgPass

end
-- ==== Proof.lean ====
/-
  The edge message-passing network, three layers on 160000 edges over 10000 nodes with 512 features: the kernel's
  program, which runs each layer's linear step with its bias and residual as one launch, against the reference.

  Both programs start from `e₀ = node_feats[src] + edge_feats` and apply three times
      h = max(e, 0);   msg = (segment-sum of h over dest)[src] − h[rev];   e' = e + (msg · Wₖᵀ + bₖ),
  then return the segment sum of the last `e` over dest, and `e` itself. All of this but the last line is the same
  host operations in both. The kernel's launch computes `(msg · Wₖᵀ + bₖ) + e` block of 3200 rows by block, its two
  casts to bf16 the identity at the ideal instance; entry by entry that is the reference's value, since both products are
  the same sum over the contracted axis and addition of extended reals is commutative. So the two programs compute one
  function of the six inputs, whatever the inputs are: the precondition is not used.

  The frames of the two kernel programs and the reference's run are the generated ones. The kernel's run is taken
  with its two results named at the last boundary of the run; those contents are read back layer by layer
  (`Fold.result_edges`, `Fold.result_nodes`) as the network over the kernel's step, the reference's results
  (`ref_edges`, `ref_nodes`) as the network over the reference's step, and the two networks are one function
  (`edgesAfter_agree`, `nodesAfter_agree`).
-/
import proofs.«140449_j9801115369512_1_alg».proof.Defs
import proofs.«140449_j9801115369512_1_alg».proof.Proof.Gen.Kernel
import proofs.«140449_j9801115369512_1_alg».proof.Proof.Gen.Kernel.Skeleton
import proofs.«140449_j9801115369512_1_alg».proof.Proof.Gen.Kernel.Launch
import proofs.«140449_j9801115369512_1_alg».proof.Proof.Gen.Kernel.Points
import proofs.«140449_j9801115369512_1_alg».proof.Proof.Gen.Kernel.Frame
import proofs.«140449_j9801115369512_1_alg».proof.Proof.Gen.KernelIdeal
import proofs.«140449_j9801115369512_1_alg».proof.Proof.Gen.KernelIdeal.Skeleton
import proofs.«140449_j9801115369512_1_alg».proof.Proof.Gen.KernelIdeal.Launch
import proofs.«140449_j9801115369512_1_alg».proof.Proof.Gen.KernelIdeal.Points
import proofs.«140449_j9801115369512_1_alg».proof.Proof.Gen.KernelIdeal.Frame
import proofs.«140449_j9801115369512_1_alg».proof.Proof.Gen.ReferenceIdeal
import proofs.«140449_j9801115369512_1_alg».proof.Proof.Gen.ReferenceIdeal.Run
import proofs.«140449_j9801115369512_1_alg».proof.Proof.Gen.ReferenceIdeal.Read
import proofs.«140449_j9801115369512_1_alg».proof.Proof.Gen.Pre_finite_inputs
import proofs.«140449_j9801115369512_1_alg».proof.Proof.KernelRun
import proofs.«140449_j9801115369512_1_alg».proof.Proof.FoldResults
import proofs.«140449_j9801115369512_1_alg».proof.Proof.RefSide
import Idealize.ShloMosaic.Adequacy
import Idealize.ShloMosaic.Init

noncomputable section

namespace Cert.Proof

open Idealize.ShloMosaic Idealize.ShloMosaic.TcCoe Idealize.SL.Sem Cert.MsgPass

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end at the network's node read-out and edge array of the kernel's inputs. -/
theorem algebraic : Cert.algebraic_KernelIdeal_ReferenceIdeal := by
  intro m ρ m' ρ' _ hagree
  refine ⟨fun c => nodesAfter linK (Fold.in0 m c) (Fold.in1 m c) (Fold.in2 m c) (Fold.in3 m c) (Fold.in4 m c) (Fold.in5 m c),
    fun c => edgesAfter linK (Fold.in0 m c) (Fold.in1 m c) (Fold.in2 m c) (Fold.in3 m c) (Fold.in4 m c) (Fold.in5 m c), ?_, ?_⟩
  · refine (θ_run Cert.KernelIdeal.defs _ _).mono (fun r h c => ?_) (Cert.KernelIdeal.Results.run_results (F := Ideal) m ρ)
    obtain ⟨hn, he, hargs⟩ := h c
    exact ⟨hn.trans (Fold.result_nodes m ρ c), he.trans (Fold.result_edges m ρ c), hargs⟩
  · refine (θ_run Cert.ReferenceIdeal.defs _ _).mono (fun r h c => ?_) (Cert.ReferenceIdeal.Value.run (F := Ideal) m' ρ')
    obtain ⟨hn, he, hargs⟩ := h c
    obtain ⟨a0, a1, a2, a3, a4, a5⟩ := hagree c
    refine ⟨?_, ?_, hargs⟩
    · refine hn.trans ((Cert.ReferenceIdeal.Read.val_main_v98_eq m' c).trans ?_)
      rw [a0, a1, a2, a3, a4, a5, ref_nodes, ← nodesAfter_agree]
    · refine he.trans ((Cert.ReferenceIdeal.Read.val_main_v95_eq m' c).trans ?_)
      rw [a0, a1, a2, a3, a4, a5, ref_edges, ← edgesAfter_agree]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
